-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S8192x128 .f32 .bf16
  ∧ IdealRules.truncf_extf.Statement Cert.KernelIdeal.S8192x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x128 : Shape := ⟨3, ![16, 8192, 128]⟩
abbrev S16x8192 : Shape := ⟨2, ![16, 8192]⟩
abbrev S_ : Shape := ⟨0, ![]⟩

class Facts : Prop where
  bcast_S_S16x8192x128 : S_.BroadcastsInDim S16x8192x128 (![] : Fin 0 → Fin S16x8192x128.rank)
  reducesTo_S16x8192x128_S_d0_1_2 : S16x8192x128.ReducesTo [0, 1, 2] S_
  h_S_ : 0 < S_.numel

variable [Facts]

def fn {F : FTy → Type} [FloatOps F] (main_arg0 : FVec F S16x8192x128 .f32) (main_arg1 : IVec S16x8192 32) (main_arg2 : IVec S16x8192 1) : IVec S_ 1 :=
  let main_v0 : FVec F S16x8192x128 .f32 := Host.absf main_arg0
  let main_cst : FVec F S_ .f32 := constant S_ .f32 0x7F800000#32
  let main_v1 : FVec F S16x8192x128 .f32 := broadcastInDim S16x8192x128 ![] bcast_S_S16x8192x128 main_cst
  let main_v2 : IVec S16x8192x128 1 := cmpf .olt main_v0 main_v1
  let main_c : IVec S_ 1 := constantI S_ 1 1#1
  let main_v3 : IVec S_ 1 := (fun x v => Host.reduce IntOp.andi x v reducesTo_S16x8192x128_S_d0_1_2 h_S_) main_v2 main_c
  main_v3
-- ==== Kernel.lean ====
abbrev S16x8192x128 : Shape := ⟨3, ![16, 8192, 128]⟩
abbrev S16x8192 : Shape := ⟨2, ![16, 8192]⟩
abbrev S_ : Shape := ⟨0, ![]⟩
abbrev S2x65536x128 : Shape := ⟨3, ![2, 65536, 128]⟩
abbrev S2x65536x1 : Shape := ⟨3, ![2, 65536, 1]⟩
abbrev S2x128x256 : Shape := ⟨3, ![2, 128, 256]⟩
abbrev S1x8192x128 : Shape := ⟨3, ![1, 8192, 128]⟩
abbrev S1x8192x1 : Shape := ⟨3, ![1, 8192, 1]⟩
abbrev S1x128x256 : Shape := ⟨3, ![1, 128, 256]⟩
abbrev S8192x256 : Shape := ⟨2, ![8192, 256]⟩
abbrev S128x256 : Shape := ⟨2, ![128, 256]⟩
abbrev S8192x128 : Shape := ⟨2, ![8192, 128]⟩
abbrev S8192x1 : Shape := ⟨2, ![8192, 1]⟩
abbrev S8192 : Shape := ⟨1, ![8192]⟩
abbrev S128x128 : Shape := ⟨2, ![128, 128]⟩
abbrev S128x1 : Shape := ⟨2, ![128, 1]⟩
abbrev S128 : Shape := ⟨1, ![128]⟩

abbrev nBuf : Space → Nat
  | .hbm => 62
  | .vmem => 8
  | .smem => 0
  | _ => 0

abbrev bufTy : (tb : Table) → Fin (tcTables nBuf tb) → BufTy
  | .hbm, ⟨0, _⟩ => ⟨S16x8192x128, .f32⟩
  | .hbm, ⟨1, _⟩ => ⟨S16x8192, .i32⟩
  | .hbm, ⟨2, _⟩ => ⟨S16x8192, .i1⟩
  | .hbm, ⟨3, _⟩ => ⟨S_, .i32⟩
  | .hbm, ⟨4, _⟩ => ⟨S16x8192, .i32⟩
  | .hbm, ⟨5, _⟩ => ⟨S16x8192, .i32⟩
  | .hbm, ⟨6, _⟩ => ⟨S2x65536x128, .f32⟩
  | .hbm, ⟨7, _⟩ => ⟨S2x65536x1, .i32⟩
  | .hbm, ⟨8, _⟩ => ⟨S2x128x256, .f32⟩
  | .hbm, ⟨9, _⟩ => ⟨S_, .f32⟩
  | .hbm, ⟨10, _⟩ => ⟨S128x256, .f32⟩
  | .hbm, ⟨11, _⟩ => ⟨S128x128, .f32⟩
  | .hbm, ⟨12, _⟩ => ⟨S128x1, .f32⟩
  | .hbm, ⟨13, _⟩ => ⟨S128, .f32⟩
  | .hbm, ⟨14, _⟩ => ⟨S128x1, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128, .f32⟩
  | .hbm, ⟨25, _⟩ => ⟨S128x128, .f32⟩
  | .hbm, ⟨26, _⟩ => ⟨S_, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .i1⟩
  | .hbm, ⟨44, _⟩ => ⟨S128, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x1, .i32⟩
  | .local _ .vmem, ⟨3, _⟩ => ⟨S1x8192x1, .i32⟩
  | .local _ .vmem, ⟨4, _⟩ => ⟨S1x128x256, .f32⟩
  | .local _ .vmem, ⟨5, _⟩ => ⟨S1x128x256, .f32⟩
  | .local _ .vmem, ⟨6, _⟩ => ⟨S8192x256, .bf16⟩
  | .local _ .vmem, ⟨7, _⟩ => ⟨S8192x256, .bf16⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_call2_v0 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16x8192 : S_.BroadcastsInDim S16x8192 (![] : Fin 0 → Fin S16x8192.rank)
  shapeCasts_S16x8192x128_S2x65536x128 : S16x8192x128.ShapeCasts S2x65536x128
  shapeCasts_S16x8192_S2x65536x1 : S16x8192.ShapeCasts S2x65536x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  reduces_S8192x128_S8192 : S8192x128.Reduces [1] S8192
  shapeCasts_S8192_S8192x1 : S8192.ShapeCasts S8192x1
  broadcasts_S8192x1_S8192x128 : S8192x1.Broadcasts S8192x128
  iota_S8192x128_d1_w32 : S8192x128.Iotas .tc 32 [1]
  natLt_1_32 : 1 < 32
  bitsLt_bf16_f32 : FTy.bits .bf16 < FTy.bits .f32
  inb_S8192x256_S8192x128_0_0 : ∀ a, (![0, 0] : Fin 2 → Nat) a + S8192x128.size a ≤ S8192x256.size a
  h_S8192x128 : 0 < S8192x128.numel
  shapeCasts_S8192x128_S8192x128 : S8192x128.ShapeCasts S8192x128
  packedbf16_S8192x256_S8192x128_0_0 : (Rect.unit (s := S8192x256) ![0, 0] S8192x128.size inb_S8192x256_S8192x128_0_0).PackedRows (EltTy.packing .bf16)
  inb_S8192x256_S8192x1_0_128 : ∀ a, (![0, 128] : Fin 2 → Nat) a + S8192x1.size a ≤ S8192x256.size a
  h_S8192x1 : 0 < S8192x1.numel
  shapeCasts_S8192x1_S8192x1 : S8192x1.ShapeCasts S8192x1
  packedbf16_S8192x256_S8192x1_0_128 : (Rect.unit (s := S8192x256) ![0, 128] S8192x1.size inb_S8192x256_S8192x1_0_128).PackedRows (EltTy.packing .bf16)
  inb_S8192x256_S8192x1_0_129 : ∀ a, (![0, 129] : Fin 2 → Nat) a + S8192x1.size a ≤ S8192x256.size a
  packedbf16_S8192x256_S8192x1_0_129 : (Rect.unit (s := S8192x256) ![0, 129] S8192x1.size inb_S8192x256_S8192x1_0_129).PackedRows (EltTy.packing .bf16)
  reducesTo_S2x128x256_S128x256_d0 : S2x128x256.ReducesTo [0] S128x256
  h_S_ : 0 < S_.numel
  slices_S128x256_S128x128_0_0 : S128x256.Slices ![0, 0] S128x128
  slices_S128x256_S128x1_0_128 : S128x256.Slices ![0, 128] S128x1
  shapeCasts_S128x1_S128 : S128x1.ShapeCasts S128
  slices_S128x256_S128x1_0_129 : S128x256.Slices ![0, 129] S128x1
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d1 : S128x128.ReducesTo [1] S128
  reducesTo_S128_S_d0 : S128.ReducesTo [0] S_
  dot_S8192x128_S8192x256_S128x256_0_0_1_1_n_n_wf : DotDims.WF S8192x128 S8192x256 S128x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S2x65536x128.size a
  hwx0_0 : ∀ i : grid0.Coords, EltTy.bits .f32 = 32 ∨ (Rect.block (s := S2x65536x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x1.size a ≤ S2x65536x1.size a
  hwx0_1 : ∀ i : grid0.Coords, EltTy.bits .i32 = 32 ∨ (Rect.block (s := S2x65536x1) S1x8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x256.size a
  hwx0_2 : ∀ i : grid0.Coords, EltTy.bits .f32 = 32 ∨ (Rect.block (s := S2x128x256) S1x128x256.size (cc0_transform_2 i) (hinb0_2 i)).WholeWords (EltTy.packing .f32)

variable [Facts₀]

def dot_S8192x128_S8192x256_S128x256_0_0_1_1_n_n : DotDims S8192x128 S8192x256 S128x256 where
  lhsContracting := [0]
  rhsContracting := [0]
  lhsNonContracting := [1]
  rhsNonContracting := [1]
  lhsBatch := []
  rhsBatch := []
  wf := dot_S8192x128_S8192x256_S128x256_0_0_1_1_n_n_wf

abbrev win0_0 : Pipeline.Window sig grid0 :=
  Pipeline.Window.ofSpec (Memref.whole main_v1) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8192x128 : Shape := ⟨3, ![16, 8192, 128]⟩
abbrev S16x8192 : Shape := ⟨2, ![16, 8192]⟩
abbrev S_ : Shape := ⟨0, ![]⟩
abbrev S16x8192x1 : Shape := ⟨3, ![16, 8192, 1]⟩
abbrev S131072x128 : Shape := ⟨2, ![131072, 128]⟩
abbrev S131072 : Shape := ⟨1, ![131072]⟩
abbrev S128 : Shape := ⟨1, ![128]⟩
abbrev S131072x1 : Shape := ⟨2, ![131072, 1]⟩
abbrev S128x128 : Shape := ⟨2, ![128, 128]⟩
abbrev S128x1 : Shape := ⟨2, ![128, 1]⟩

abbrev nBuf : Space → Nat
  | .hbm => 83
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S16x8192, .i32⟩
  | .hbm, ⟨2, _⟩ => ⟨S16x8192, .i1⟩
  | .hbm, ⟨3, _⟩ => ⟨S_, .f32⟩
  | .hbm, ⟨4, _⟩ => ⟨S16x8192, .f32⟩
  | .hbm, ⟨5, _⟩ => ⟨S_, .f32⟩
  | .hbm, ⟨6, _⟩ => ⟨S16x8192, .f32⟩
  | .hbm, ⟨7, _⟩ => ⟨S16x8192, .f32⟩
  | .hbm, ⟨8, _⟩ => ⟨S16x8192x1, .f32⟩
  | .hbm, ⟨9, _⟩ => ⟨S16x8192x128, .f32⟩
  | .hbm, ⟨10, _⟩ => ⟨S16x8192x128, .f32⟩
  | .hbm, ⟨11, _⟩ => ⟨S16x8192x128, .f32⟩
  | .hbm, ⟨12, _⟩ => ⟨S_, .f32⟩
  | .hbm, ⟨13, _⟩ => ⟨S16x8192, .f32⟩
  | .hbm, ⟨14, _⟩ => ⟨S16x8192x1, .f32⟩
  | .hbm, ⟨15, _⟩ => ⟨S16x8192x128, .f32⟩
  | .hbm, ⟨16, _⟩ => ⟨S16x8192x128, .f32⟩
  | .hbm, ⟨17, _⟩ => ⟨S131072x128, .f32⟩
  | .hbm, ⟨18, _⟩ => ⟨S131072, .i32⟩
  | .hbm, ⟨19, _⟩ => ⟨S131072, .i1⟩
  | .hbm, ⟨20, _⟩ => ⟨S131072, .f32⟩
  | .hbm, ⟨21, _⟩ => ⟨S_, .f32⟩
  | .hbm, ⟨22, _⟩ => ⟨S128, .f32⟩
  | .hbm, ⟨23, _⟩ => ⟨S131072x1, .i32⟩
  | .hbm, ⟨24, _⟩ => ⟨S128, .f32⟩
  | .hbm, ⟨25, _⟩ => ⟨S131072x1, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S128x128, .f32⟩
  | .hbm, ⟨30, _⟩ => ⟨S131072x1, .i32⟩
  | .hbm, ⟨31, _⟩ => ⟨S128x128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128x1, .f32⟩
  | .hbm, ⟨36, _⟩ => ⟨S128x128, .f32⟩
  | .hbm, ⟨37, _⟩ => ⟨S128x128, .f32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x1, .f32⟩
  | .hbm, ⟨50, _⟩ => ⟨S131072x128, .f32⟩
  | .hbm, ⟨51, _⟩ => ⟨S131072x128, .f32⟩
  | .hbm, ⟨52, _⟩ => ⟨S_, .f32⟩
  | .hbm, ⟨53, _⟩ => ⟨S128x128, .f32⟩
  | .hbm, ⟨54, _⟩ => ⟨S131072x1, .i32⟩
  | .hbm, ⟨55, _⟩ => ⟨S128x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .i1⟩
  | .hbm, ⟨65, _⟩ => ⟨S128, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_call0_v0 : Ref sig .tc := ⟨.hbm, 70, rfl⟩
abbrev main_call0_v1 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_call1_v0 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  reducesTo_S16x8192x128_S16x8192_d2 : S16x8192x128.ReducesTo [2] S16x8192
  h_S_ : 0 < S_.numel
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  bcast_S16x8192x1_S16x8192x128_0_1_2 : S16x8192x1.BroadcastsInDim S16x8192x128 (![0, 1, 2] : Fin 3 → Fin S16x8192x128.rank)
  shapeCasts_S16x8192x128_S131072x128 : S16x8192x128.ShapeCasts S131072x128
  shapeCasts_S16x8192_S131072 : S16x8192.ShapeCasts S131072
  bcast_S_S128 : S_.BroadcastsInDim S128 (![] : Fin 0 → Fin S128.rank)
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S_S131072 : S_.BroadcastsInDim S131072 (![] : Fin 0 → Fin S131072.rank)
  reducesTo_S128x128_S128_d1 : S128x128.ReducesTo [1] S128
  natLt_1_32 : 1 < 32
  reducesTo_S128_S_d0 : S128.ReducesTo [0] S_
  scatter_S128_S131072x1_S131072_n_0_0_1_wf : ScatterDims.WF S128 S131072x1 S131072 [] [0] [0] 1
  scatter_S128x128_S131072x1_S131072x128_1_0_0_1_wf : ScatterDims.WF S128x128 S131072x1 S131072x128 [1] [0] [0] 1
  gather_S128x128_S131072x1_S131072x128_1_0_n_n_0_1_1128_wf : GatherDims.WF S128x128 S131072x1 S131072x128 [1] [0] [] [0] [] 1 ![1, 128]

variable [Facts₀]

def scatter_S128_S131072x1_S131072_n_0_0_1 : ScatterDims S128 S131072x1 S131072 where
  updateWindowDims := []
  insertedWindowDims := [0]
  scatterDimsToOperandDims := [0]
  indexVectorDim := 1
  wf := scatter_S128_S131072x1_S131072_n_0_0_1_wf
def scatter_S128x128_S131072x1_S131072x128_1_0_0_1 : ScatterDims S128x128 S131072x1 S131072x128 where
  updateWindowDims := [1]
  insertedWindowDims := [0]
  scatterDimsToOperandDims := [0]
  indexVectorDim := 1
  wf := scatter_S128x128_S131072x1_S131072x128_1_0_0_1_wf
def gather_S128x128_S131072x1_S131072x128_1_0_n_n_0_1_1128 : GatherDims S128x128 S131072x1 S131072x128 where
  offsetDims := [1]
  collapsedSliceDims := [0]
  operandBatchingDims := []
  startIndicesBatchingDims := []
  startIndexMap := [0]
  indexVectorDim := 1
  sliceSizes := ![1, 128]
  wf := gather_S128x128_S131072x1_S131072x128_1_0_n_n_0_1_1128_wf

class Facts : Prop extends Facts₀ where

variable [Facts]
-- ==== Proof.Spec.lean ====
/-
  The mathematics of the column-consistency statistic, stated once over the extended reals and over literal
  index types, for both programs to be read against.

  A token is a pair (b, r) of a batch b < 16 and a position r < 8192; its 128 logits give a softmax row
  `prob`, and its segment id a column c < 128 (or none). Per column c the statistic needs
    n_c      the number of valid tokens whose segment is c,
    s_{c,j}  the sum over those tokens of prob_j,
    q_c      the sum over those tokens of the row's sum of squares  ∑_j prob_j²,
  and from them the per-column variance. The streaming program accumulates n, s, q block by block as products
  of a one-hot matrix with a 256-column right-hand side; the two-pass program sums squared deviations from the
  column mean. `finish` is the tail both programs share: the mean of the variances of the columns with more
  than one token.
-/
import Idealize.ShloMosaic.PureOps.Ideal
import Idealize.ShloMosaic.PureOps.Ideal.Laws
import Idealize.ShloMosaic.Lib.ValueIdx
import Idealize.ShloMosaic.Lib.StableHlo

noncomputable section

open scoped BigOperators

namespace Cert.SegStats

open Idealize.ShloMosaic Idealize.ShloMosaic.ValueIdx

/-! ## Shapes and literals -/

abbrev SX : Shape := ⟨3, ![16, 8192, 128]⟩
abbrev SA : Shape := ⟨2, ![16, 8192]⟩
abbrev SO : Shape := ⟨3, ![2, 128, 256]⟩
abbrev SC : Shape := ⟨1, ![128]⟩
abbrev S0 : Shape := ⟨0, ![]⟩

/-- −∞, the value a row maximum starts from. -/
abbrev negInf : EReal := Ideal.ofBits .f32 0xFF800000#32
abbrev zeroF : EReal := Ideal.ofBits .f32 0x00000000#32
abbrev oneF : EReal := Ideal.ofBits .f32 0x3F800000#32
abbrev twoF : EReal := Ideal.ofBits .f32 0x40000000#32
abbrev c128F : EReal := Ideal.ofBits .f32 0x43000000#32
abbrev zeroH : EReal := Ideal.ofBits .bf16 0x0000#16
abbrev oneH : EReal := Ideal.ofBits .bf16 0x3F80#16

/-! ## One token's row -/

/-- The maximum of a row of 128 logits, folded from −∞. -/
def rowMax (x : Fin 128 → EReal) : EReal := (Finset.univ : Finset (Fin 128)).fold max negInf x
/-- exp (x_j − max x). -/
def rowExp (x : Fin 128 → EReal) (j : Fin 128) : EReal := Ideal.exp (x j - rowMax x)
/-- The softmax entry: exp (x_j − max x) / ∑_k exp (x_k − max x). -/
def prob (x : Fin 128 → EReal) (j : Fin 128) : EReal := Ideal.div (rowExp x j) (∑ k : Fin 128, rowExp x k)
/-- ∑_j prob_j². -/
def sumSq (x : Fin 128 → EReal) : EReal := ∑ j : Fin 128, prob x j * prob x j

/-- The one-hot entry: 1 when the segment word is the column's number, else 0. -/
def hit (s : BitVec 32) (c : Fin 128) : EReal := if s = BitVec.ofNat 32 c.val then 1 else 0

/-- Entry k of the 256-column right-hand side's high part for one token: the softmax row in columns 0–127, the
    row's sum of squares in column 128, one in column 129, zero in the padding. -/
def hiCol (x : Fin 128 → EReal) (k : Fin 256) : EReal :=
  if h : k.val < 128 then prob x ⟨k.val, h⟩ else if k.val = 128 then sumSq x else if k.val = 129 then oneH else zeroH
/-- Entry k of its low part: the residue v − v of each value v of the high part in columns 0–128, zero elsewhere. -/
def loCol (x : Fin 128 → EReal) (k : Fin 256) : EReal :=
  if h : k.val < 128 then prob x ⟨k.val, h⟩ - prob x ⟨k.val, h⟩ else if k.val = 128 then sumSq x - sumSq x else zeroH

/-! ## The streaming program's accumulation -/

/-- What one block of 8192 tokens adds to entry (c, k) of the accumulator: the one-hot matrix's transpose times the
    high part, plus the same times the low part. -/
def blockTerm (x : Fin 8192 → Fin 128 → EReal) (s : Fin 8192 → BitVec 32) (c : Fin 128) (k : Fin 256) : EReal :=
  (∑ r : Fin 8192, hit (s r) c * hiCol (x r) k) + (∑ r : Fin 8192, hit (s r) c * loCol (x r) k)

/-- The accumulator after block n (n < 16): reset to zero at the first block of each half (n divisible by 8), each
    block's term added in order. -/
def accAt (X : Fin 16 → Fin 8192 → Fin 128 → EReal) (S : Fin 16 → Fin 8192 → BitVec 32) :
    (n : ℕ) → n < 16 → Fin 128 → Fin 256 → EReal
  | 0, h => fun c k => zeroF + blockTerm (X ⟨0, h⟩) (S ⟨0, h⟩) c k
  | n + 1, h => fun c k =>
      (if (n + 1) % 8 = 0 then zeroF else accAt X S n (Nat.lt_of_succ_lt h) c k) + blockTerm (X ⟨n + 1, h⟩) (S ⟨n + 1, h⟩) c k

/-- Batch b's rows of the logits. -/
def rowsOf (X : SX.Idx → EReal) (b : Fin 16) (r : Fin 8192) : Fin 128 → EReal := fun j => X (ix3 b r j)
/-- The segment word with the mask folded in: the assignment where the token is valid, −1 where it is not. -/
def segOf (A : SA.Idx → BitVec 32) (M : SA.Idx → BitVec 1) (b : Fin 16) (r : Fin 8192) : BitVec 32 :=
  if M (ix2 b r) = 1#1 then A (ix2 b r) else 4294967295#32

/-- The two halves' accumulators as the streaming pass leaves them: half p holds the accumulator after its eighth block. -/
def regionOut (X : SX.Idx → EReal) (A : SA.Idx → BitVec 32) (M : SA.Idx → BitVec 1) : SO.Idx → EReal :=
  fun i => accAt (rowsOf X) (segOf A M) (8 * (i 0).val + 7) (by have h2 : (i 0).val < 2 := (i 0).isLt; omega) (i 1) (i 2)

/-! ## From the accumulators to the variances (the streaming program's host lines) -/

/-- The two halves summed, from zero. -/
def stats (O : SO.Idx → EReal) (c : Fin 128) (k : Fin 256) : EReal := zeroF + ∑ p : Fin 2, O (ix3 p c k)
def kN (O : SO.Idx → EReal) (c : Fin 128) : EReal := stats O c ⟨129, by decide⟩
def kSafe (O : SO.Idx → EReal) (c : Fin 128) : EReal := max (kN O c) oneF
def kS (O : SO.Idx → EReal) (c j : Fin 128) : EReal := stats O c ⟨j.val, by have := j.isLt; omega⟩
def kMean (O : SO.Idx → EReal) (c j : Fin 128) : EReal := Ideal.div (kS O c j) (kSafe O c)
/-- sumsq − 2 ∑_j mean_j s_j + n ∑_j mean_j², clamped at zero. -/
def kSsd (O : SO.Idx → EReal) (c : Fin 128) : EReal :=
  max ((stats O c ⟨128, by decide⟩ - twoF * (zeroF + ∑ j : Fin 128, kMean O c j * kS O c j))
        + kN O c * (zeroF + ∑ j : Fin 128, kMean O c j * kMean O c j)) zeroF
def kVar (O : SO.Idx → EReal) (c : Fin 128) : EReal := Ideal.div (kSsd O c) (kSafe O c * c128F)

/-! ## The two-pass program -/

/-- A flat token number's batch and position. -/
def tokB (t : Fin 131072) : Fin 16 := ⟨t.val / 8192, by have := t.isLt; omega⟩
def tokR (t : Fin 131072) : Fin 8192 := ⟨t.val % 8192, Nat.mod_lt _ (by decide)⟩

/-- The token's weight: 1 where valid, 0 where not. -/
def wOf (M : SA.Idx → BitVec 1) (t : Fin 131072) : EReal := (((M (ix2 (tokB t) (tokR t))).toNat : ℝ) : EReal)
def aOf (A : SA.Idx → BitVec 32) (t : Fin 131072) : BitVec 32 := A (ix2 (tokB t) (tokR t))
def pOf (X : SX.Idx → EReal) (t : Fin 131072) (j : Fin 128) : EReal := prob (rowsOf X (tokB t) (tokR t)) j

/-- n_c: the weights of the tokens whose segment, read signed, is c. -/
def rN (A : SA.Idx → BitVec 32) (M : SA.Idx → BitVec 1) (c : Fin 128) : EReal :=
  zeroF + ∑ t : Fin 131072, if (aOf A t).toInt = (c.val : Int) then wOf M t else 0
def rSafe (A : SA.Idx → BitVec 32) (M : SA.Idx → BitVec 1) (c : Fin 128) : EReal := max (rN A M c) oneF
def rS (X : SX.Idx → EReal) (A : SA.Idx → BitVec 32) (M : SA.Idx → BitVec 1) (c j : Fin 128) : EReal :=
  zeroF + ∑ t : Fin 131072, if (aOf A t).toInt = (c.val : Int) then pOf X t j * wOf M t else 0
def rMean (X : SX.Idx → EReal) (A : SA.Idx → BitVec 32) (M : SA.Idx → BitVec 1) (c j : Fin 128) : EReal :=
  Ideal.div (rS X A M c j) (rSafe A M c)
/-- The row of the mean table a token's deviation is taken from: its segment, a negative one wrapped by 128, then
    clamped into the table. -/
def gRow (A : SA.Idx → BitVec 32) (t : Fin 131072) : Fin 128 :=
  ⟨min (if (aOf A t).slt 0#32 then aOf A t + 128#32 else aOf A t).toInt.toNat 127, by omega⟩
def rSq (X : SX.Idx → EReal) (A : SA.Idx → BitVec 32) (M : SA.Idx → BitVec 1) (t : Fin 131072) (j : Fin 128) : EReal :=
  ((pOf X t j - rMean X A M (gRow A t) j) * (pOf X t j - rMean X A M (gRow A t) j)) * wOf M t
def rSsd (X : SX.Idx → EReal) (A : SA.Idx → BitVec 32) (M : SA.Idx → BitVec 1) (c j : Fin 128) : EReal :=
  zeroF + ∑ t : Fin 131072, if (aOf A t).toInt = (c.val : Int) then rSq X A M t j else 0
def rVar (X : SX.Idx → EReal) (A : SA.Idx → BitVec 32) (M : SA.Idx → BitVec 1) (c : Fin 128) : EReal :=
  Ideal.div (zeroF + ∑ j : Fin 128, rSsd X A M c j) (rSafe A M c * c128F)

end Cert.SegStats

end
-- ==== Proof.KPieces.lean ====
/-
  What one run of the streaming body leaves behind, as whole-buffer values. The body overwrites columns 0–127,
  128 and 129 of the high-part scratch and columns 0–127 and 128 of the low-part scratch and leaves their other
  columns as they were (all zero after the reset at a half's first block); it then adds the two products of the
  one-hot matrix with the scratch buffers to the accumulator block (zero after the reset, else what the block
  before left).
-/
import proofs.«419050_j75161927680447_3_alg».proof.Proof.Spec
import proofs.«419050_j75161927680447_3_alg».proof.Defs
import proofs.«419050_j75161927680447_3_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic
import Idealize.ShloMosaic.Lib.WritesUnit

set_option maxRecDepth 16384

noncomputable section

open Idealize.ShloMosaic Idealize.ShloMosaic.TcCoe Idealize.SL.Sem Idealize.ShloMosaic.ValueIdx

namespace Cert.SegStats.K

open Cert.KernelIdeal Cert.KernelIdeal.Gen

variable {F : FTy → Type} [FloatOps F]

/-- The high-part scratch after the body's three stores over `prev`: the softmax block in columns 0–127, the
    rows' sums of squares in column 128, ones in column 129, `prev` elsewhere. -/
def hiNew (prev : Vec F S8192x256 .bf16) (x0 : Vec F S1x8192x128 .f32) : Vec F S8192x256 .bf16 := fun y =>
  if h : (y 1).val < 128 then k0_pay14 x0 (ix2 (⟨(y 0).val, (y 0).isLt⟩ : Fin 8192) (⟨(y 1).val, h⟩ : Fin 128))
  else if (y 1).val = 128 then k0_pay15 x0 (ix2 (⟨(y 0).val, (y 0).isLt⟩ : Fin 8192) (0 : Fin 1))
  else if (y 1).val = 129 then k0_pay1 (k0_pay13 (F := F)) (ix2 (⟨(y 0).val, (y 0).isLt⟩ : Fin 8192) (0 : Fin 1))
  else prev y

/-- The low-part scratch after the body's two stores over `prev`: the residues in columns 0–127 and 128, `prev`
    elsewhere. -/
def loNew (prev : Vec F S8192x256 .bf16) (x0 : Vec F S1x8192x128 .f32) : Vec F S8192x256 .bf16 := fun y =>
  if h : (y 1).val < 128 then k0_pay2 (k0_pay11 x0) (ix2 (⟨(y 0).val, (y 0).isLt⟩ : Fin 8192) (⟨(y 1).val, h⟩ : Fin 128))
  else if (y 1).val = 128 then k0_pay3 (k0_pay12 x0) (ix2 (⟨(y 0).val, (y 0).isLt⟩ : Fin 8192) (0 : Fin 1))
  else prev y

namespace Pieces

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer, through the rectangle of the buffer's own sizes at zero offsets, reads its contents. -/
theorem readAt_whole {S : Shape} {e : EltTy} (m : Memref sig .tc .vmem S e) (hm : m.IsWhole) (X : S.Idx → Elt F e)
    {off : Fin S.rank → Nat} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

/-- The newest store being one of the whole buffer, the buffer reads back that store's payload. -/
theorem read_cons_whole {κ : Kind} {sp : Space} {S : Shape} {e : EltTy} (v : View sig κ sp S e) (f : v.ty.Contents (Elt F))
    {off : Fin S.rank → Nat} (h : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst h
  funext y
  exact View.read_writes_cons_unit_of_mem v f inb w L y y rfl (fun a => (Nat.zero_add _).symm)

/-- The high-part scratch read at an index after the body's three stores: by the column, the newest store that
    holds the index wins, and an index none of them holds reads what was there before. -/
theorem hi_eq {κ : Kind} {sp : Space} (v : View sig κ sp S8192x256 .bf16) (f : v.ty.Contents (Elt F))
    (L : List (View.Piece (Elt F) S8192x256 .bf16)) (prev : Vec F S8192x256 .bf16) (x0 : Vec F S1x8192x128 .f32)
    (inb129 : ∀ a, (![0, 129] : Fin 2 → Nat) a + (![8192, 1] : Fin 2 → Nat) a ≤ S8192x256.size a)
    (inb128 : ∀ a, (![0, 128] : Fin 2 → Nat) a + (![8192, 1] : Fin 2 → Nat) a ≤ S8192x256.size a)
    (inb0 : ∀ a, (![0, 0] : Fin 2 → Nat) a + (![8192, 128] : Fin 2 → Nat) a ≤ S8192x256.size a)
    (hrest : v.read (Elt F) (v.writes (Elt F) f L) = prev) (y : S8192x256.Idx) :
    v.read (Elt F) (v.writes (Elt F) f
      ((⟨Rect.unit ![0, 129] ![8192, 1] inb129, k0_pay1 (k0_pay13 (F := F))⟩ : View.Piece (Elt F) S8192x256 .bf16)
        :: ⟨Rect.unit ![0, 128] ![8192, 1] inb128, k0_pay15 x0⟩
        :: ⟨Rect.unit ![0, 0] ![8192, 128] inb0, k0_pay14 x0⟩ :: L)) y = hiNew prev x0 y := by
  unfold hiNew
  by_cases h1 : (y 1).val < 128
  · rw [dif_pos h1]
    rw [View.read_writes_cons_unit_of_not_mem v f inb129 _ _ y rfl 1 (Or.inl (show (y 1).val < 129 by omega))]
    rw [View.read_writes_cons_unit_of_not_mem v f inb128 _ _ y rfl 1 (Or.inl (show (y 1).val < 128 from h1))]
    exact View.read_writes_cons_unit_of_mem v f inb0 _ L y
      (ix2 (⟨(y 0).val, (y 0).isLt⟩ : Fin 8192) (⟨(y 1).val, h1⟩ : Fin 128)) rfl
      (Fin.forall_fin_two.mpr ⟨(Nat.zero_add _).symm, (Nat.zero_add _).symm⟩)
  · rw [dif_neg h1]
    by_cases h2 : (y 1).val = 128
    · rw [if_pos h2]
      rw [View.read_writes_cons_unit_of_not_mem v f inb129 _ _ y rfl 1 (Or.inl (show (y 1).val < 129 by omega))]
      exact View.read_writes_cons_unit_of_mem v f inb128 _ _ y
        (ix2 (⟨(y 0).val, (y 0).isLt⟩ : Fin 8192) (0 : Fin 1)) rfl
        (Fin.forall_fin_two.mpr ⟨(Nat.zero_add _).symm, h2⟩)
    · rw [if_neg h2]
      by_cases h3 : (y 1).val = 129
      · rw [if_pos h3]
        exact View.read_writes_cons_unit_of_mem v f inb129 _ _ y
          (ix2 (⟨(y 0).val, (y 0).isLt⟩ : Fin 8192) (0 : Fin 1)) rfl
          (Fin.forall_fin_two.mpr ⟨(Nat.zero_add _).symm, h3⟩)
      · rw [if_neg h3]
        rw [View.read_writes_cons_unit_of_not_mem v f inb129 _ _ y rfl 1 (Or.inr (show 129 + 1 ≤ (y 1).val by omega))]
        rw [View.read_writes_cons_unit_of_not_mem v f inb128 _ _ y rfl 1 (Or.inr (show 128 + 1 ≤ (y 1).val by omega))]
        rw [View.read_writes_cons_unit_of_not_mem v f inb0 _ _ y rfl 1 (Or.inr (show 0 + 128 ≤ (y 1).val by omega))]
        exact congrFun hrest y

/-- The low-part scratch read at an index after the body's two stores. -/
theorem lo_eq {κ : Kind} {sp : Space} (v : View sig κ sp S8192x256 .bf16) (f : v.ty.Contents (Elt F))
    (L : List (View.Piece (Elt F) S8192x256 .bf16)) (prev : Vec F S8192x256 .bf16) (x0 : Vec F S1x8192x128 .f32)
    (inb128 : ∀ a, (![0, 128] : Fin 2 → Nat) a + (![8192, 1] : Fin 2 → Nat) a ≤ S8192x256.size a)
    (inb0 : ∀ a, (![0, 0] : Fin 2 → Nat) a + (![8192, 128] : Fin 2 → Nat) a ≤ S8192x256.size a)
    (hrest : v.read (Elt F) (v.writes (Elt F) f L) = prev) (y : S8192x256.Idx) :
    v.read (Elt F) (v.writes (Elt F) f
      ((⟨Rect.unit ![0, 128] ![8192, 1] inb128, k0_pay3 (k0_pay12 x0)⟩ : View.Piece (Elt F) S8192x256 .bf16)
        :: ⟨Rect.unit ![0, 0] ![8192, 128] inb0, k0_pay2 (k0_pay11 x0)⟩ :: L)) y = loNew prev x0 y := by
  unfold loNew
  by_cases h1 : (y 1).val < 128
  · rw [dif_pos h1]
    rw [View.read_writes_cons_unit_of_not_mem v f inb128 _ _ y rfl 1 (Or.inl (show (y 1).val < 128 from h1))]
    exact View.read_writes_cons_unit_of_mem v f inb0 _ L y
      (ix2 (⟨(y 0).val, (y 0).isLt⟩ : Fin 8192) (⟨(y 1).val, h1⟩ : Fin 128)) rfl
      (Fin.forall_fin_two.mpr ⟨(Nat.zero_add _).symm, (Nat.zero_add _).symm⟩)
  · rw [dif_neg h1]
    by_cases h2 : (y 1).val = 128
    · rw [if_pos h2]
      exact View.read_writes_cons_unit_of_mem v f inb128 _ _ y
        (ix2 (⟨(y 0).val, (y 0).isLt⟩ : Fin 8192) (0 : Fin 1)) rfl
        (Fin.forall_fin_two.mpr ⟨(Nat.zero_add _).symm, h2⟩)
    · rw [if_neg h2]
      rw [View.read_writes_cons_unit_of_not_mem v f inb128 _ _ y rfl 1 (Or.inr (show 128 + 1 ≤ (y 1).val by omega))]
      rw [View.read_writes_cons_unit_of_not_mem v f inb0 _ _ y rfl 1 (Or.inr (show 0 + 128 ≤ (y 1).val by omega))]
      exact congrFun hrest y

/-- A load of the whole buffer, the newest store being one of the whole buffer, reads that store's payload. -/
theorem readAt_cons_whole {κ : Kind} {sp : Space} {S : Shape} {e : EltTy} (v : View sig κ sp S e) (f : v.ty.Contents (Elt F))
    {off : Fin S.rank → Nat} (h : off = fun _ => 0) (inb inb' : ∀ a, off a + S.size a ≤ S.size a)
    (w : (Rect.unit off S.size inb).shape.Idx → Elt F e) (L : List (View.Piece (Elt F) S e)) :
    View.readAt (Elt F) v (Rect.unit off S.size inb').toLoadRect
      (v.writes (Elt F) f ((⟨Rect.unit off S.size inb, w⟩ : View.Piece (Elt F) S e) :: L)) = w := by
  rw [View.readAt_eq_ld, read_cons_whole v f h inb w L, View.ld_unit_zero h]

/-- A load of the whole high-part scratch after the body's three stores reads `hiNew`. -/
theorem hi_readAt {κ : Kind} {sp : Space} (v : View sig κ sp S8192x256 .bf16) (f : v.ty.Contents (Elt F))
    (L : List (View.Piece (Elt F) S8192x256 .bf16)) (prev : Vec F S8192x256 .bf16) (x0 : Vec F S1x8192x128 .f32)
    (inb129 : ∀ a, (![0, 129] : Fin 2 → Nat) a + (![8192, 1] : Fin 2 → Nat) a ≤ S8192x256.size a)
    (inb128 : ∀ a, (![0, 128] : Fin 2 → Nat) a + (![8192, 1] : Fin 2 → Nat) a ≤ S8192x256.size a)
    (inb0 : ∀ a, (![0, 0] : Fin 2 → Nat) a + (![8192, 128] : Fin 2 → Nat) a ≤ S8192x256.size a)
    (inbW : ∀ a, (![0, 0] : Fin 2 → Nat) a + S8192x256.size a ≤ S8192x256.size a)
    (hrest : v.read (Elt F) (v.writes (Elt F) f L) = prev) :
    View.readAt (Elt F) v (Rect.unit ![0, 0] S8192x256.size inbW).toLoadRect (v.writes (Elt F) f
      ((⟨Rect.unit ![0, 129] ![8192, 1] inb129, k0_pay1 (k0_pay13 (F := F))⟩ : View.Piece (Elt F) S8192x256 .bf16)
        :: ⟨Rect.unit ![0, 128] ![8192, 1] inb128, k0_pay15 x0⟩
        :: ⟨Rect.unit ![0, 0] ![8192, 128] inb0, k0_pay14 x0⟩ :: L)) = hiNew prev x0 := by
  rw [View.readAt_eq_ld]
  refine (View.ld_unit_zero (S := S8192x256) hz2 inbW _).trans ?_
  funext y
  exact hi_eq v f L prev x0 inb129 inb128 inb0 hrest y

/-- A load of the whole low-part scratch after the body's two stores reads `loNew`. -/
theorem lo_readAt {κ : Kind} {sp : Space} (v : View sig κ sp S8192x256 .bf16) (f : v.ty.Contents (Elt F))
    (L : List (View.Piece (Elt F) S8192x256 .bf16)) (prev : Vec F S8192x256 .bf16) (x0 : Vec F S1x8192x128 .f32)
    (inb128 : ∀ a, (![0, 128] : Fin 2 → Nat) a + (![8192, 1] : Fin 2 → Nat) a ≤ S8192x256.size a)
    (inb0 : ∀ a, (![0, 0] : Fin 2 → Nat) a + (![8192, 128] : Fin 2 → Nat) a ≤ S8192x256.size a)
    (inbW : ∀ a, (![0, 0] : Fin 2 → Nat) a + S8192x256.size a ≤ S8192x256.size a)
    (hrest : v.read (Elt F) (v.writes (Elt F) f L) = prev) :
    View.readAt (Elt F) v (Rect.unit ![0, 0] S8192x256.size inbW).toLoadRect (v.writes (Elt F) f
      ((⟨Rect.unit ![0, 128] ![8192, 1] inb128, k0_pay3 (k0_pay12 x0)⟩ : View.Piece (Elt F) S8192x256 .bf16)
        :: ⟨Rect.unit ![0, 0] ![8192, 128] inb0, k0_pay2 (k0_pay11 x0)⟩ :: L)) = loNew prev x0 := by
  rw [View.readAt_eq_ld]
  refine (View.ld_unit_zero (S := S8192x256) hz2 inbW _).trans ?_
  funext y
  exact lo_eq v f L prev x0 inb128 inb0 hrest y

end Pieces

/-! ## A half's first block: everything reset first -/

theorem sout_A_0 (c : Dev nD) (i : grid0.Coords) (arg2 : Memref sig .tc .vmem S1x8192x128 .f32) (harg2 : arg2.IsWhole) (arg3 : Memref sig .tc .vmem S1x8192x1 .i32) (harg3 : arg3.IsWhole) (arg4 : Memref sig .tc .vmem S1x128x256 .f32) (harg4 : arg4.IsWhole) (arg5 : Memref sig .tc .vmem S8192x256 .bf16) (harg5 : arg5.IsWhole) (arg6 : Memref sig .tc .vmem S8192x256 .bf16) (harg6 : arg6.IsWhole) (hc0 : cond0_0 i)
    (x0 : Vec F S1x8192x128 .f32) (x1 : Vec F S1x8192x1 .i32) :
    sout0_A_0 c i arg2 harg2 arg3 harg3 arg4 harg4 arg5 harg5 arg6 harg6 hc0 x0 x1 = hiNew (k0_pay6 (F := F)) x0 := by
  funext y
  unfold sout0_A_0 kernelRun0_A
  dsimp only
  sl_unfold_words
  rw [Pieces.readAt_whole (S := S1x8192x128) arg2 harg2 x0 Pieces.hz3]
  exact Pieces.hi_eq VS0_0 VS0_0.junk _ (k0_pay6 (F := F)) x0 _ _ _ (Pieces.read_cons_whole (S := S8192x256) VS0_0 _ Pieces.hz2 _ _ _) y

theorem sout_A_1 (c : Dev nD) (i : grid0.Coords) (arg2 : Memref sig .tc .vmem S1x8192x128 .f32) (harg2 : arg2.IsWhole) (arg3 : Memref sig .tc .vmem S1x8192x1 .i32) (harg3 : arg3.IsWhole) (arg4 : Memref sig .tc .vmem S1x128x256 .f32) (harg4 : arg4.IsWhole) (arg5 : Memref sig .tc .vmem S8192x256 .bf16) (harg5 : arg5.IsWhole) (arg6 : Memref sig .tc .vmem S8192x256 .bf16) (harg6 : arg6.IsWhole) (hc0 : cond0_0 i)
    (x0 : Vec F S1x8192x128 .f32) (x1 : Vec F S1x8192x1 .i32) :
    sout0_A_1 c i arg2 harg2 arg3 harg3 arg4 harg4 arg5 harg5 arg6 harg6 hc0 x0 x1 = loNew (k0_pay7 (F := F)) x0 := by
  funext y
  unfold sout0_A_1 kernelRun0_A
  dsimp only
  sl_unfold_words
  rw [Pieces.readAt_whole (S := S1x8192x128) arg2 harg2 x0 Pieces.hz3]
  exact Pieces.lo_eq VS0_1 VS0_1.junk _ (k0_pay7 (F := F)) x0 _ _ (Pieces.read_cons_whole (S := S8192x256) VS0_1 _ Pieces.hz2 _ _ _) y

theorem out_A_2 (c : Dev nD) (i : grid0.Coords) (arg2 : Memref sig .tc .vmem S1x8192x128 .f32) (harg2 : arg2.IsWhole) (arg3 : Memref sig .tc .vmem S1x8192x1 .i32) (harg3 : arg3.IsWhole) (arg4 : Memref sig .tc .vmem S1x128x256 .f32) (harg4 : arg4.IsWhole) (arg5 : Memref sig .tc .vmem S8192x256 .bf16) (harg5 : arg5.IsWhole) (arg6 : Memref sig .tc .vmem S8192x256 .bf16) (harg6 : arg6.IsWhole) (hc0 : cond0_0 i)
    (x0 : Vec F S1x8192x128 .f32) (x1 : Vec F S1x8192x1 .i32) :
    out0_A_2 c i arg2 harg2 arg3 harg3 arg4 harg4 arg5 harg5 arg6 harg6 hc0 x0 x1
      = k0_pay4 (k0_pay10 x1) (hiNew (k0_pay6 (F := F)) x0) (loNew (k0_pay7 (F := F)) x0) (k0_pay5 (F := F)) := by
  unfold out0_A_2 kernelRun0_A
  dsimp only
  sl_unfold_words
  rw [Pieces.readAt_whole (S := S1x8192x128) arg2 harg2 x0 Pieces.hz3,
    Pieces.readAt_whole (S := S1x8192x1) arg3 harg3 x1 Pieces.hz3]
  refine (Pieces.read_cons_whole (S := S1x128x256) VO0_2 _ Pieces.hz3 _ _ _).trans ?_
  unfold View.readCov
  rw [Pieces.hi_readAt arg5.view arg5.view.junk _ (k0_pay6 (F := F)) x0 _ _ _ _
      (Pieces.read_cons_whole (S := S8192x256) arg5.view _ Pieces.hz2 _ _ _),
    Pieces.lo_readAt arg6.view arg6.view.junk _ (k0_pay7 (F := F)) x0 _ _ _
      (Pieces.read_cons_whole (S := S8192x256) arg6.view _ Pieces.hz2 _ _ _),
    Pieces.readAt_cons_whole (S := S1x128x256) arg4.view _ Pieces.hz3]

/-! ## The later blocks of a half: over what the block before left -/

theorem sout_B_0 (c : Dev nD) (i : grid0.Coords) (arg2 : Memref sig .tc .vmem S1x8192x128 .f32) (harg2 : arg2.IsWhole) (arg3 : Memref sig .tc .vmem S1x8192x1 .i32) (harg3 : arg3.IsWhole) (arg4 : Memref sig .tc .vmem S1x128x256 .f32) (harg4 : arg4.IsWhole) (arg5 : Memref sig .tc .vmem S8192x256 .bf16) (harg5 : arg5.IsWhole) (arg6 : Memref sig .tc .vmem S8192x256 .bf16) (harg6 : arg6.IsWhole) (hc0 : ¬cond0_0 i)
    (x0 : Vec F S1x8192x128 .f32) (x1 : Vec F S1x8192x1 .i32) (xo2 : Vec F S1x128x256 .f32) (xs0 : Vec F S8192x256 .bf16) (xs1 : Vec F S8192x256 .bf16) :
    sout0_B_0 c i arg2 harg2 arg3 harg3 arg4 harg4 arg5 harg5 arg6 harg6 hc0 x0 x1 xo2 xs0 xs1 = hiNew xs0 x0 := by
  funext y
  unfold sout0_B_0 kernelRun0_B
  dsimp only
  sl_unfold_words
  rw [Pieces.readAt_whole (S := S1x8192x128) arg2 harg2 x0 Pieces.hz3]
  exact Pieces.hi_eq arg5.view (harg5.unread xs0) [] xs0 x0 _ _ _ (harg5.read_unread xs0) y

theorem sout_B_1 (c : Dev nD) (i : grid0.Coords) (arg2 : Memref sig .tc .vmem S1x8192x128 .f32) (harg2 : arg2.IsWhole) (arg3 : Memref sig .tc .vmem S1x8192x1 .i32) (harg3 : arg3.IsWhole) (arg4 : Memref sig .tc .vmem S1x128x256 .f32) (harg4 : arg4.IsWhole) (arg5 : Memref sig .tc .vmem S8192x256 .bf16) (harg5 : arg5.IsWhole) (arg6 : Memref sig .tc .vmem S8192x256 .bf16) (harg6 : arg6.IsWhole) (hc0 : ¬cond0_0 i)
    (x0 : Vec F S1x8192x128 .f32) (x1 : Vec F S1x8192x1 .i32) (xo2 : Vec F S1x128x256 .f32) (xs0 : Vec F S8192x256 .bf16) (xs1 : Vec F S8192x256 .bf16) :
    sout0_B_1 c i arg2 harg2 arg3 harg3 arg4 harg4 arg5 harg5 arg6 harg6 hc0 x0 x1 xo2 xs0 xs1 = loNew xs1 x0 := by
  funext y
  unfold sout0_B_1 kernelRun0_B
  dsimp only
  sl_unfold_words
  rw [Pieces.readAt_whole (S := S1x8192x128) arg2 harg2 x0 Pieces.hz3]
  exact Pieces.lo_eq arg6.view (harg6.unread xs1) [] xs1 x0 _ _ (harg6.read_unread xs1) y

theorem out_B_2 (c : Dev nD) (i : grid0.Coords) (arg2 : Memref sig .tc .vmem S1x8192x128 .f32) (harg2 : arg2.IsWhole) (arg3 : Memref sig .tc .vmem S1x8192x1 .i32) (harg3 : arg3.IsWhole) (arg4 : Memref sig .tc .vmem S1x128x256 .f32) (harg4 : arg4.IsWhole) (arg5 : Memref sig .tc .vmem S8192x256 .bf16) (harg5 : arg5.IsWhole) (arg6 : Memref sig .tc .vmem S8192x256 .bf16) (harg6 : arg6.IsWhole) (hc0 : ¬cond0_0 i)
    (x0 : Vec F S1x8192x128 .f32) (x1 : Vec F S1x8192x1 .i32) (xo2 : Vec F S1x128x256 .f32) (xs0 : Vec F S8192x256 .bf16) (xs1 : Vec F S8192x256 .bf16) :
    out0_B_2 c i arg2 harg2 arg3 harg3 arg4 harg4 arg5 harg5 arg6 harg6 hc0 x0 x1 xo2 xs0 xs1 = k0_pay4 (k0_pay10 x1) (hiNew xs0 x0) (loNew xs1 x0) xo2 := by
  unfold out0_B_2 kernelRun0_B
  dsimp only
  sl_unfold_words
  rw [Pieces.readAt_whole (S := S1x8192x128) arg2 harg2 x0 Pieces.hz3,
    Pieces.readAt_whole (S := S1x8192x1) arg3 harg3 x1 Pieces.hz3,
    Pieces.readAt_whole (S := S1x128x256) arg4 harg4 xo2 Pieces.hz3]
  refine (Pieces.read_cons_whole (S := S1x128x256) VO0_2 _ Pieces.hz3 _ _ _).trans ?_
  rw [Pieces.hi_readAt arg5.view (harg5.unread xs0) [] xs0 x0 _ _ _ _ (harg5.read_unread xs0),
    Pieces.lo_readAt arg6.view (harg6.unread xs1) [] xs1 x0 _ _ _ (harg6.read_unread xs1)]

end Cert.SegStats.K

end
-- ==== Proof.KHostPre.lean ====
/-
  The streaming region's input blocks in terms of the program's arguments. The logits are reshaped from
  [16, 8192, 128] to [2, 65536, 128] and cut into blocks of 8192 rows, so grid point t = 8p + i reads rows
  8192 i … 8192 i + 8191 of half p: exactly batch t. The segment words are the assignments with −1 selected
  where the mask is clear, reshaped and cut the same way.
-/
import proofs.«419050_j75161927680447_3_alg».proof.Proof.Spec
import proofs.«419050_j75161927680447_3_alg».proof.Defs
import proofs.«419050_j75161927680447_3_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.SegStats.K

open Cert.KernelIdeal Cert.KernelIdeal.Gen Cert.SegStats

variable (m : (ℓ : Loc nD τ sig) → Buf (Elt Ideal) ℓ)

/-- The three arguments on core c, as the index-level functions the specification is stated over. -/
abbrev argX (c : Dev nD) : SX.Idx → EReal := m ((c.tc : Thread nD τ).loc main_arg0)
abbrev argA (c : Dev nD) : SA.Idx → BitVec 32 := m ((c.tc : Thread nD τ).loc main_arg1)
abbrev argM (c : Dev nD) : SA.Idx → BitVec 1 := m ((c.tc : Thread nD τ).loc main_arg2)

/-- A grid point as a batch number. -/
def pt (t : Fin cfg0.N) : Fin 16 := ⟨t.val, lt_of_lt_of_eq t.isLt (show cfg0.N = 16 from N_0)⟩

namespace Host

/-- The first window's array as the region finds it: the logits, reshaped to two halves of 65536 rows. -/
theorem V_v1 (c : Dev nD) : (V m c main_v1 : S2x65536x128.Idx → EReal)
    = shapeCast S2x65536x128 (argX m c) shapeCasts_S16x8192x128_S2x65536x128 := by
  dsimp only [Gen.V, Gen.V0]
  simp only [Gen.hostOps0, Gen.hostOps0_1, Gen.hostOps0_2, List.flatten_cons, List.flatten_nil, List.append_nil,
    List.cons_append, List.nil_append]
  after_results
  rfl

/-- The second window's array as the region finds it: the assignments with the all-ones word selected where the mask
    is clear, reshaped to two halves of 65536 rows of one word. -/
theorem V_v2 (c : Dev nD) : (V m c main_v2 : S2x65536x1.Idx → BitVec 32)
    = shapeCast S2x65536x1
        (select (argM m c) (argA m c) (broadcastInDim S16x8192 ![] bcast_S_S16x8192 (constantI S_ 32 4294967295#32)))
        shapeCasts_S16x8192_S2x65536x1 := by
  dsimp only [Gen.V, Gen.V0]
  simp only [Gen.hostOps0, Gen.hostOps0_1, Gen.hostOps0_2, List.flatten_cons, List.flatten_nil, List.append_nil,
    List.cons_append, List.nil_append]
  after_results
  rfl

/-- Grid point t = 8p + i takes block (p, i, 0) of the logits: half p, the i-th stretch of 8192 rows. -/
theorem idx0 : ∀ t : Fin cfg0.N,
    win0_0.index t (0 : Fin 3) = t.val / 8 ∧ win0_0.index t (1 : Fin 3) = t.val % 8 ∧ win0_0.index t (2 : Fin 3) = 0 :=
  (by decide +kernel : ∀ t : Fin grid0.N,
    win0_0.index t (0 : Fin 3) = t.val / 8 ∧ win0_0.index t (1 : Fin 3) = t.val % 8 ∧ win0_0.index t (2 : Fin 3) = 0)

/-- And the same block of the segment words. -/
theorem idx1 : ∀ t : Fin cfg0.N,
    win0_1.index t (0 : Fin 3) = t.val / 8 ∧ win0_1.index t (1 : Fin 3) = t.val % 8 ∧ win0_1.index t (2 : Fin 3) = 0 :=
  (by decide +kernel : ∀ t : Fin grid0.N,
    win0_1.index t (0 : Fin 3) = t.val / 8 ∧ win0_1.index t (1 : Fin 3) = t.val % 8 ∧ win0_1.index t (2 : Fin 3) = 0)

/-- The segment words before the reshape: the assignment where the mask bit is set, the all-ones word elsewhere. -/
theorem seg_apply (c : Dev nD) (b : Fin 16) (r : Fin 8192) :
    select (argM m c) (argA m c) (broadcastInDim S16x8192 ![] bcast_S_S16x8192 (constantI S_ 32 4294967295#32)) (ix2 b r)
      = segOf (argA m c) (argM m c) b r := by
  rw [select_apply]
  unfold segOf Scalar.select
  rfl

end Host

/-- Grid point t's block of the logits is batch t: row r of block (t / 8, t % 8) of the reshaped array sits at row-major
    position 65536 (t / 8) + 8192 (t % 8) + r = 8192 t + r, which is row r of batch t. -/
theorem iblk0_apply (c : Dev nD) (t : Fin cfg0.N) (r : Fin 8192) (j : Fin 128) :
    (iblk m c 0 t : Vec Ideal S1x8192x128 .f32) (ix3 (0 : Fin 1) r j) = argX m c (ix3 (pt t) r j) := by
  obtain ⟨h0, h1, h2⟩ := Host.idx0 t
  have ht : t.val < 16 := lt_of_lt_of_eq t.isLt (show cfg0.N = 16 from N_0)
  unfold iblk
  rw [View.read_apply]
  show V m c main_v1 (((cfg0.win 0).blk t).view.emb (ix3 (0 : Fin 1) r j)) = _
  refine (congrFun (Host.V_v1 m c) _).trans ?_
  refine shapeCast_apply _ _ _ (ix3 (pt t) r j) ?_
  rw [Shape.rowMajor_val_three, Shape.rowMajor_val_three]
  show (t.val * 8192 + r.val) * 128 + j.val
    = ((win0_0.index t 0 * 1 + 1 * 0) * 65536 + (win0_0.index t 1 * 8192 + 1 * r.val)) * 128
      + (win0_0.index t 2 * 128 + 1 * j.val)
  rw [h0, h1, h2]; omega

/-- Grid point t's block of the segment words is batch t's assignments, −1 where the mask is clear. -/
theorem iblk1_apply (c : Dev nD) (t : Fin cfg0.N) (r : Fin 8192) :
    (iblk m c 1 t : Vec Ideal S1x8192x1 .i32) (ix3 (0 : Fin 1) r (0 : Fin 1)) = segOf (argA m c) (argM m c) (pt t) r := by
  obtain ⟨h0, h1, h2⟩ := Host.idx1 t
  have ht : t.val < 16 := lt_of_lt_of_eq t.isLt (show cfg0.N = 16 from N_0)
  unfold iblk
  rw [View.read_apply]
  show V m c main_v2 (((cfg0.win 1).blk t).view.emb (ix3 (0 : Fin 1) r (0 : Fin 1))) = _
  refine (congrFun (Host.V_v2 m c) _).trans ?_
  refine (shapeCast_apply _ _ _ (ix2 (pt t) r) ?_).trans (Host.seg_apply m c (pt t) r)
  rw [Shape.rowMajor_val_two, Shape.rowMajor_val_three]
  show t.val * 8192 + r.val
    = ((win0_1.index t 0 * 1 + 1 * 0) * 65536 + (win0_1.index t 1 * 8192 + 1 * r.val)) * 1
      + (win0_1.index t 2 * 1 + 1 * 0)
  rw [h0, h1, h2]; omega

end Cert.SegStats.K

end
-- ==== Proof.KValue.lean ====
/-
  The streaming region's result array: after its sixteen grid points, half p of the output holds the accumulator
  after the half's eighth block. Each point's block is written back only at a half's last point, and the two
  blocks written back tile the array.

  The argument has three steps. First, one block's arithmetic read entry by entry over the extended reals: the
  softmax of each row (row maximum folded from −∞, exponentials, their sum, the quotient), its sum of squares,
  the one-hot row of the segment word, the 256-column high part (softmax, sum of squares, one, zero padding)
  and its low part (each value less itself), and the two products contracted over the block's 8192 rows, added
  to what the accumulator block held. Second, by induction on the grid point, the accumulator block after point
  n is the specification's accumulator after block n, reset at the first block of each half, and the two scratch
  buffers hold block n's parts (so their padding columns stay zero, which the next block's step uses). Third,
  the points that write back are 7 and 15, point 8 p + 7 writes half p, and the two halves tile the array.
-/
import proofs.«419050_j75161927680447_3_alg».proof.Proof.KPieces
import proofs.«419050_j75161927680447_3_alg».proof.Proof.KHostPre

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.SegStats.K.Value

open Cert.KernelIdeal Cert.KernelIdeal.Gen Cert.SegStats

/-! ## One block's arithmetic, entry by entry -/

/-- A vector viewed as a one-column matrix reads its entry on every row. -/
theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A one-column matrix spread over b columns reads its one column everywhere. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rfl

/-- The reduced index with the lane put back is the matrix index. -/
theorem lift_row (r : Fin 8192) (k : Fin 128) : reduces_S8192x128_S8192.lift (ix1 r) k = ix2 r k := by
  funext c; apply Fin.ext
  match c with
  | ⟨0, _⟩ => rfl
  | ⟨1, _⟩ => rfl

/-- A row's maximum, folded from −∞. -/
theorem rowmax_apply (v : FVec Ideal S8192x128 .f32) (r : Fin 8192) (hφ : FKind.Formats .f32)
    (hacc : (0xFF800000#32 : BitVec 32) = 0xFF800000#32) :
    multiReduction .maximumf [1] S8192 v 0xFF800000#32 reduces_S8192x128_S8192 hφ hacc (ix1 r)
      = rowMax (fun j => v (ix2 r j)) := by
  refine (Ideal.multiReduction_maximumf_single v 0xFF800000#32 reduces_S8192x128_S8192 hφ hacc (ix1 r)).trans ?_
  unfold rowMax
  exact Finset.fold_congr (fun j _ => congrArg v (lift_row r j))

/-- A row's sum. -/
theorem rowsum_apply (v : FVec Ideal S8192x128 .f32) (r : Fin 8192) (hφ : FKind.Formats .f32)
    (hacc : (0x00000000#32 : BitVec 32) = 0x00000000#32) :
    multiReduction .add [1] S8192 v 0x00000000#32 reduces_S8192x128_S8192 hφ hacc (ix1 r)
      = ∑ j : Fin 128, v (ix2 r j) := by
  refine (Ideal.multiReduction_add_single v 0x00000000#32 reduces_S8192x128_S8192 hφ hacc (ix1 r)).trans ?_
  exact Finset.sum_congr rfl (fun j _ => congrArg v (lift_row r j))

/-- The exponential of a vector at an index is the exponential of the entry. -/
theorem exp_apply {s : Shape} {φ : FTy} (a : FVec Ideal s φ) (i : s.Idx) : exp a i = Ideal.exp (a i) :=
  rfl

/-- Entry (r, j) of the softmax block is the softmax of row r of the logits block at lane j. -/
theorem pay8_apply (x0 : Vec Ideal S1x8192x128 .f32) (r : Fin 8192) (j : Fin 128) :
    k0_pay8 x0 (ix2 r j) = prob (fun j => x0 (ix3 (0 : Fin 1) r j)) j := by
  unfold k0_pay8
  dsimp only
  simp only [divf_apply, exp_apply, subf_apply, bcast_col, cast_col, shapeCast_1ab_ab_apply]
  rw [rowmax_apply, rowsum_apply]
  simp only [exp_apply, subf_apply, bcast_col, cast_col, shapeCast_1ab_ab_apply]
  rw [rowmax_apply]
  simp only [shapeCast_1ab_ab_apply]
  rfl

/-- A row's sum of squares, kept as a column. -/
theorem pay9_apply (x0 : Vec Ideal S1x8192x128 .f32) (r : Fin 8192) (u : Fin 1) :
    k0_pay9 x0 (ix2 r u) = sumSq (fun j => x0 (ix3 (0 : Fin 1) r j)) := by
  unfold k0_pay9
  simp only [cast_col]
  rw [rowsum_apply]
  simp only [mulf_apply, pay8_apply]
  rfl

/-- A comparison of integer vectors at an index compares the entries. -/
theorem cmpi_apply {s : Shape} {w : ℕ} (p : CmpIPredicate) (x y : IVec s w) (i : s.Idx) :
    cmpi p x y i = IntOp.cmpi p (x i) (y i) :=
  rfl

/-- The lane numbers along a row. -/
theorem iota_col (r : Fin 8192) (c : Fin 128) :
    iota .tc S8192x128 32 [1] iota_S8192x128_d1_w32 (ix2 r c) = BitVec.ofNat 32 c.val :=
  (iota_single_apply .tc S8192x128 32 1 iota_S8192x128_d1_w32 (ix2 r c)).trans rfl

/-- The comparison's bit, widened and read as a number, is one where the words agree and zero where they do not. -/
theorem hit_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    rw [e, if_pos h]
    have : ((1#1 : BitVec 1).setWidth 32).toInt = 1 := by decide
    rw [this]; simp
  · have hb : (a == b) = false := by simpa using h
    have e : IntOp.cmpi .eq a b = 0#1 := by simp [IntOp.cmpi, hb]
    rw [e, if_neg h]
    have : ((0#1 : BitVec 1).setWidth 32).toInt = 0 := by decide
    rw [this]; simp

/-- Entry (r, c) of the one-hot block. -/
theorem pay10_apply (x1 : Vec Ideal S1x8192x1 .i32) (r : Fin 8192) (c : Fin 128) :
    k0_pay10 (F := Ideal) x1 (ix2 r c) = hit (x1 (ix3 (0 : Fin 1) r (0 : Fin 1))) c := by
  unfold k0_pay10
  simp only [truncf_apply, sitofp_apply, extui_apply, cmpi_apply, bcast_col, shapeCast_1ab_ab_apply, hit_word]
  rw [iota_col]
  rfl

/-- The high part's first 128 columns hold the softmax block. -/
theorem pay14_apply (x0 : Vec Ideal S1x8192x128 .f32) (r : Fin 8192) (j : Fin 128) :
    k0_pay14 x0 (ix2 r j) = prob (fun j => x0 (ix3 (0 : Fin 1) r j)) j := by
  unfold k0_pay14
  rw [shapeCast_self]
  exact pay8_apply x0 r j

/-- Its column 128 holds the rows' sums of squares. -/
theorem pay15_apply (x0 : Vec Ideal S1x8192x128 .f32) (r : Fin 8192) (u : Fin 1) :
    k0_pay15 x0 (ix2 r u) = sumSq (fun j => x0 (ix3 (0 : Fin 1) r j)) := by
  unfold k0_pay15
  rw [shapeCast_self]
  exact pay9_apply x0 r u

/-- Its column 129 holds ones. -/
theorem pay1_apply (r : Fin 8192) (u : Fin 1) : k0_pay1 (k0_pay13 (F := Ideal)) (ix2 r u) = oneH := by
  unfold k0_pay1 k0_pay13
  rw [shapeCast_self]
  rfl

/-- The low part's first 128 columns hold each softmax entry less itself. -/
theorem pay2_apply (x0 : Vec Ideal S1x8192x128 .f32) (r : Fin 8192) (j : Fin 128) :
    k0_pay2 (k0_pay11 x0) (ix2 r j)
      = prob (fun j => x0 (ix3 (0 : Fin 1) r j)) j - prob (fun j => x0 (ix3 (0 : Fin 1) r j)) j := by
  unfold k0_pay2 k0_pay11
  rw [shapeCast_self]
  show k0_pay8 x0 (ix2 r j) - k0_pay8 x0 (ix2 r j) = _
  rw [pay8_apply]

/-- Its column 128 holds each sum of squares less itself. -/
theorem pay3_apply (x0 : Vec Ideal S1x8192x128 .f32) (r : Fin 8192) (u : Fin 1) :
    k0_pay3 (k0_pay12 x0) (ix2 r u)
      = sumSq (fun j => x0 (ix3 (0 : Fin 1) r j)) - sumSq (fun j => x0 (ix3 (0 : Fin 1) r j)) := by
  unfold k0_pay3 k0_pay12
  rw [shapeCast_self]
  show k0_pay9 x0 (ix2 r u) - k0_pay9 x0 (ix2 r u) = _
  rw [pay9_apply]

/-- The reset's blocks are zero everywhere. -/
theorem pay5_apply (cc : Fin 128) (k : Fin 256) : k0_pay5 (F := Ideal) (ix3 (0 : Fin 1) cc k) = zeroF := by
  unfold k0_pay5
  rw [shapeCast_ab_1ab_apply]
  rfl

theorem pay6_apply (r : Fin 8192) (k : Fin 256) : k0_pay6 (F := Ideal) (ix2 r k) = zeroH := by
  unfold k0_pay6
  rw [shapeCast_self]
  rfl

theorem pay7_apply (r : Fin 8192) (k : Fin 256) : k0_pay7 (F := Ideal) (ix2 r k) = zeroH := by
  unfold k0_pay7
  rw [shapeCast_self]
  rfl

/-- The two products contract the rows of both operands: at result entry j and row q, the left operand is read at
    (q, j₀) and the right operand at (q, j₁). The four coordinates, axis by axis. -/
theorem lhs_ax0 (j : S128x256.Idx) (q : dot_S8192x128_S8192x256_S128x256_0_0_1_1_n_n.contr.Idx) :
    (dot_S8192x128_S8192x256_S128x256_0_0_1_1_n_n.lhsIdx j q (0 : Fin 2)).val = (q ⟨0, Nat.one_pos⟩).val :=
  dot_S8192x128_S8192x256_S128x256_0_0_1_1_n_n.lhsIdx_val_of_single (cl := (0 : Fin 2)) rfl j q

theorem rhs_ax0 (j : S128x256.Idx) (q : dot_S8192x128_S8192x256_S128x256_0_0_1_1_n_n.contr.Idx) :
    (dot_S8192x128_S8192x256_S128x256_0_0_1_1_n_n.rhsIdx j q (0 : Fin 2)).val = (q ⟨0, Nat.one_pos⟩).val :=
  dot_S8192x128_S8192x256_S128x256_0_0_1_1_n_n.rhsIdx_val_of_single (cr := (0 : Fin 2)) rfl j q

theorem lhs_ax1 (j : S128x256.Idx) (q : dot_S8192x128_S8192x256_S128x256_0_0_1_1_n_n.contr.Idx) :
    (dot_S8192x128_S8192x256_S128x256_0_0_1_1_n_n.lhsIdx j q (1 : Fin 2)).val = (j 0).val := by
  simp [DotDims.lhsIdx, dot_S8192x128_S8192x256_S128x256_0_0_1_1_n_n]; rfl

theorem rhs_ax1 (j : S128x256.Idx) (q : dot_S8192x128_S8192x256_S128x256_0_0_1_1_n_n.contr.Idx) :
    (dot_S8192x128_S8192x256_S128x256_0_0_1_1_n_n.rhsIdx j q (1 : Fin 2)).val = (j 1).val := by
  simp [DotDims.rhsIdx, dot_S8192x128_S8192x256_S128x256_0_0_1_1_n_n]; rfl

/-- The one-hot block's transpose times a 256-column right-hand side, at (c, k): the sum over the block's rows. -/
theorem mm_apply (A : FVec Ideal S8192x128 .bf16) (B : FVec Ideal S8192x256 .bf16) (c : Fin 128) (k : Fin 256) :
    matmul dot_S8192x128_S8192x256_S128x256_0_0_1_1_n_n none A B (constant (F := Ideal) S128x256 .f32 0x00000000#32) (ix2 c k)
      = ∑ r : Fin 8192, A (ix2 r c) * B (ix2 r k) := by
  refine (Ideal.matmul_constant_zero_apply dot_S8192x128_S8192x256_S128x256_0_0_1_1_n_n none A B (ix2 c k)).trans ?_
  rw [← Equiv.sum_comp (contrEquiv1 dot_S8192x128_S8192x256_S128x256_0_0_1_1_n_n 8192 rfl rfl).symm]
  refine Finset.sum_congr rfl fun r _ => ?_
  have hq := contrEquiv1_symm_val dot_S8192x128_S8192x256_S128x256_0_0_1_1_n_n 8192 rfl rfl r
  have hl : dot_S8192x128_S8192x256_S128x256_0_0_1_1_n_n.lhsIdx (ix2 c k)
      ((contrEquiv1 dot_S8192x128_S8192x256_S128x256_0_0_1_1_n_n 8192 rfl rfl).symm r) = ix2 r c := by
    funext ax; apply Fin.ext
    match ax with
    | ⟨0, _⟩ => exact (lhs_ax0 _ _).trans hq
    | ⟨1, _⟩ => exact lhs_ax1 _ _
  have hr : dot_S8192x128_S8192x256_S128x256_0_0_1_1_n_n.rhsIdx (ix2 c k)
      ((contrEquiv1 dot_S8192x128_S8192x256_S128x256_0_0_1_1_n_n 8192 rfl rfl).symm r) = ix2 r k := by
    funext ax; apply Fin.ext
    match ax with
    | ⟨0, _⟩ => exact (rhs_ax0 _ _).trans hq
    | ⟨1, _⟩ => exact rhs_ax1 _ _
  rw [hl, hr]

/-- Entry (0, c, k) of the accumulator block after a block: what it held, plus the two products' entries. -/
theorem pay4_apply (v24 : FVec Ideal S8192x128 .bf16) (v49 v51 : Vec Ideal S8192x256 .bf16) (v53 : Vec Ideal S1x128x256 .f32)
    (c : Fin 128) (k : Fin 256) :
    k0_pay4 v24 v49 v51 v53 (ix3 (0 : Fin 1) c k)
      = v53 (ix3 (0 : Fin 1) c k) + ((∑ r : Fin 8192, v24 (ix2 r c) * v49 (ix2 r k)) + (∑ r : Fin 8192, v24 (ix2 r c) * v51 (ix2 r k))) := by
  unfold k0_pay4
  simp only [shapeCast_ab_1ab_apply, addf_apply, shapeCast_1ab_ab_apply, mm_apply]

/-- A row of the high part after a block's stores, given that its padding columns were zero before. -/
theorem hiNew_apply (prev : Vec Ideal S8192x256 .bf16) (x0 : Vec Ideal S1x8192x128 .f32) (R : Fin 128 → EReal) (r : Fin 8192)
    (hR : ∀ j, x0 (ix3 (0 : Fin 1) r j) = R j) (k : Fin 256) (hprev : 130 ≤ k.val → prev (ix2 r k) = zeroH) :
    hiNew prev x0 (ix2 r k) = hiCol R k := by
  obtain rfl : (fun j => x0 (ix3 (0 : Fin 1) r j)) = R := funext hR
  unfold hiNew hiCol
  show (if h : k.val < 128 then k0_pay14 x0 (ix2 r (⟨k.val, h⟩ : Fin 128))
    else if k.val = 128 then k0_pay15 x0 (ix2 r (0 : Fin 1))
    else if k.val = 129 then k0_pay1 (k0_pay13 (F := Ideal)) (ix2 r (0 : Fin 1)) else prev (ix2 r k)) = _
  by_cases h1 : k.val < 128
  · rw [dif_pos h1, dif_pos h1]; exact pay14_apply x0 r ⟨k.val, h1⟩
  · rw [dif_neg h1, dif_neg h1]
    by_cases h2 : k.val = 128
    · rw [if_pos h2, if_pos h2]; exact pay15_apply x0 r 0
    · rw [if_neg h2, if_neg h2]
      by_cases h3 : k.val = 129
      · rw [if_pos h3, if_pos h3]; exact pay1_apply r 0
      · rw [if_neg h3, if_neg h3]; exact hprev (by omega)

/-- A row of the low part after a block's stores, given that its padding columns were zero before. -/
theorem loNew_apply (prev : Vec Ideal S8192x256 .bf16) (x0 : Vec Ideal S1x8192x128 .f32) (R : Fin 128 → EReal) (r : Fin 8192)
    (hR : ∀ j, x0 (ix3 (0 : Fin 1) r j) = R j) (k : Fin 256) (hprev : 129 ≤ k.val → prev (ix2 r k) = zeroH) :
    loNew prev x0 (ix2 r k) = loCol R k := by
  obtain rfl : (fun j => x0 (ix3 (0 : Fin 1) r j)) = R := funext hR
  unfold loNew loCol
  show (if h : k.val < 128 then k0_pay2 (k0_pay11 x0) (ix2 r (⟨k.val, h⟩ : Fin 128))
    else if k.val = 128 then k0_pay3 (k0_pay12 x0) (ix2 r (0 : Fin 1)) else prev (ix2 r k)) = _
  by_cases h1 : k.val < 128
  · rw [dif_pos h1, dif_pos h1]; exact pay2_apply x0 r ⟨k.val, h1⟩
  · rw [dif_neg h1, dif_neg h1]
    by_cases h2 : k.val = 128
    · rw [if_pos h2, if_pos h2]; exact pay3_apply x0 r 0
    · rw [if_neg h2, if_neg h2]; exact hprev (by omega)

/-- ONE BLOCK'S STEP of the accumulator: entry (0, c, k) after the block is what the accumulator block held plus the
    block's term, for a block whose rows are R and whose segment words are S, the scratch buffers' padding columns zero. -/
theorem acc_apply (x0 : Vec Ideal S1x8192x128 .f32) (x1 : Vec Ideal S1x8192x1 .i32) (xs0 xs1 : Vec Ideal S8192x256 .bf16)
    (xo2 : Vec Ideal S1x128x256 .f32) (R : Fin 8192 → Fin 128 → EReal) (S : Fin 8192 → BitVec 32)
    (hR : ∀ r j, x0 (ix3 (0 : Fin 1) r j) = R r j) (hS : ∀ r, x1 (ix3 (0 : Fin 1) r (0 : Fin 1)) = S r)
    (hhi : ∀ (r : Fin 8192) (k : Fin 256), 130 ≤ k.val → xs0 (ix2 r k) = zeroH)
    (hlo : ∀ (r : Fin 8192) (k : Fin 256), 129 ≤ k.val → xs1 (ix2 r k) = zeroH) (cc : Fin 128) (k : Fin 256) :
    k0_pay4 (k0_pay10 x1) (hiNew xs0 x0) (loNew xs1 x0) xo2 (ix3 (0 : Fin 1) cc k)
      = xo2 (ix3 (0 : Fin 1) cc k) + blockTerm R S cc k := by
  rw [pay4_apply]
  unfold blockTerm
  refine congrArg (xo2 (ix3 (0 : Fin 1) cc k) + ·) ?_
  refine congr (congrArg HAdd.hAdd (Finset.sum_congr rfl fun r _ => ?_)) (Finset.sum_congr rfl fun r _ => ?_)
  · rw [pay10_apply, hiNew_apply xs0 x0 (R r) r (hR r) k (hhi r k), hS]
  · rw [pay10_apply, loNew_apply xs1 x0 (R r) r (hR r) k (hlo r k), hS]

/-- The padding columns of both parts are zero. -/
theorem hiCol_pad (R : Fin 128 → EReal) (k : Fin 256) (hk : 130 ≤ k.val) : hiCol R k = zeroH := by
  unfold hiCol
  rw [dif_neg (by omega), if_neg (by omega), if_neg (by omega)]

theorem loCol_pad (R : Fin 128 → EReal) (k : Fin 256) (hk : 129 ≤ k.val) : loCol R k = zeroH := by
  unfold loCol
  rw [dif_neg (by omega), if_neg (by omega)]

variable (m : (ℓ : Loc nD τ sig) → Buf (Elt Ideal) ℓ)

/-- Grid point t's block of the logits and its block of the segment words. -/
abbrev xblk (c : Dev nD) (t : Fin cfg0.N) : Vec Ideal S1x8192x128 .f32 := iblk m c 0 t
abbrev sblk (c : Dev nD) (t : Fin cfg0.N) : Vec Ideal S1x8192x1 .i32 := iblk m c 1 t

theorem lt16 {n : ℕ} (h : n < cfg0.N) : n < 16 := lt_of_lt_of_eq h (show cfg0.N = 16 from N_0)

/-- A HALF'S FIRST BLOCK: the accumulator block is zero plus the block's term, and the two scratch buffers hold the
    block's high and low parts. -/
theorem pointA (c : Dev nD) (t : Fin cfg0.N) (h0 : t.val % 8 = 0) :
    (∀ (cc : Fin 128) (k : Fin 256), (outsAt0 m c t.val t.isLt).1 (ix3 (0 : Fin 1) cc k)
        = zeroF + blockTerm (rowsOf (argX m c) (pt t)) (segOf (argA m c) (argM m c) (pt t)) cc k)
    ∧ (∀ (r : Fin 8192) (k : Fin 256), (outsAt0 m c t.val t.isLt).2.1 (ix2 r k) = hiCol (rowsOf (argX m c) (pt t) r) k)
    ∧ (∀ (r : Fin 8192) (k : Fin 256), (outsAt0 m c t.val t.isLt).2.2 (ix2 r k) = loCol (rowsOf (argX m c) (pt t) r) k) := by
  rw [outsAt0_A m c t h0]
  dsimp only
  refine ⟨fun cc k => ?_, fun r k => ?_, fun r k => ?_⟩
  · refine (congrFun (out_A_2 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (xblk m c t) (sblk m c t)) (ix3 (0 : Fin 1) cc k)).trans ?_
    refine (acc_apply (xblk m c t) (sblk m c t) (k0_pay6 (F := Ideal)) (k0_pay7 (F := Ideal)) (k0_pay5 (F := Ideal))
      (rowsOf (argX m c) (pt t)) (segOf (argA m c) (argM m c) (pt t)) (fun r j => iblk0_apply m c t r j) (fun r => iblk1_apply m c t r)
      (fun r k _ => pay6_apply r k) (fun r k _ => pay7_apply r k) cc k).trans ?_
    rw [pay5_apply]
  · refine (congrFun (sout_A_0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (xblk m c t) (sblk m c t)) (ix2 r k)).trans ?_
    exact hiNew_apply (k0_pay6 (F := Ideal)) (xblk m c t) (rowsOf (argX m c) (pt t) r) r (fun j => iblk0_apply m c t r j) k
      (fun _ => pay6_apply r k)
  · refine (congrFun (sout_A_1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (xblk m c t) (sblk m c t)) (ix2 r k)).trans ?_
    exact loNew_apply (k0_pay7 (F := Ideal)) (xblk m c t) (rowsOf (argX m c) (pt t) r) r (fun j => iblk0_apply m c t r j) k
      (fun _ => pay7_apply r k)

/-- A LATER BLOCK of a half: the accumulator block is what the block before left plus this block's term, and the two
    scratch buffers hold this block's parts, their padding columns having been zero. -/
theorem pointB (c : Dev nD) (t : Fin cfg0.N) (h0 : ¬t.val % 8 = 0)
    (hhi : ∀ (r : Fin 8192) (k : Fin 256), 130 ≤ k.val → (outsAt0 m c (t.val - 1) (Nat.lt_of_le_of_lt (Nat.sub_le _ _) t.isLt)).2.1 (ix2 r k) = zeroH)
    (hlo : ∀ (r : Fin 8192) (k : Fin 256), 129 ≤ k.val → (outsAt0 m c (t.val - 1) (Nat.lt_of_le_of_lt (Nat.sub_le _ _) t.isLt)).2.2 (ix2 r k) = zeroH) :
    (∀ (cc : Fin 128) (k : Fin 256), (outsAt0 m c t.val t.isLt).1 (ix3 (0 : Fin 1) cc k)
        = (outsAt0 m c (t.val - 1) (Nat.lt_of_le_of_lt (Nat.sub_le _ _) t.isLt)).1 (ix3 (0 : Fin 1) cc k) + blockTerm (rowsOf (argX m c) (pt t)) (segOf (argA m c) (argM m c) (pt t)) cc k)
    ∧ (∀ (r : Fin 8192) (k : Fin 256), (outsAt0 m c t.val t.isLt).2.1 (ix2 r k) = hiCol (rowsOf (argX m c) (pt t) r) k)
    ∧ (∀ (r : Fin 8192) (k : Fin 256), (outsAt0 m c t.val t.isLt).2.2 (ix2 r k) = loCol (rowsOf (argX m c) (pt t) r) k) := by
  rw [outsAt0_B m c t h0]
  dsimp only
  refine ⟨fun cc k => ?_, fun r k => ?_, fun r k => ?_⟩
  · refine (congrFun (out_B_2 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (xblk m c t) (sblk m c t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) cc k)).trans ?_
    exact acc_apply (xblk m c t) (sblk m c t) (outsAt0 m c (t.val - 1) (Nat.lt_of_le_of_lt (Nat.sub_le _ _) t.isLt)).2.1 (outsAt0 m c (t.val - 1) (Nat.lt_of_le_of_lt (Nat.sub_le _ _) t.isLt)).2.2 (outsAt0 m c (t.val - 1) (Nat.lt_of_le_of_lt (Nat.sub_le _ _) t.isLt)).1
      (rowsOf (argX m c) (pt t)) (segOf (argA m c) (argM m c) (pt t)) (fun r j => iblk0_apply m c t r j) (fun r => iblk1_apply m c t r)
      hhi hlo cc k
  · refine (congrFun (sout_B_0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (xblk m c t) (sblk m c t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix2 r k)).trans ?_
    exact hiNew_apply (outsAt0 m c (t.val - 1) (Nat.lt_of_le_of_lt (Nat.sub_le _ _) t.isLt)).2.1 (xblk m c t) (rowsOf (argX m c) (pt t) r) r (fun j => iblk0_apply m c t r j) k (hhi r k)
  · refine (congrFun (sout_B_1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (xblk m c t) (sblk m c t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix2 r k)).trans ?_
    exact loNew_apply (outsAt0 m c (t.val - 1) (Nat.lt_of_le_of_lt (Nat.sub_le _ _) t.isLt)).2.2 (xblk m c t) (rowsOf (argX m c) (pt t) r) r (fun j => iblk0_apply m c t r j) k (hlo r k)

/-- THE INVARIANT, by induction on the point: after point n the accumulator block holds the accumulator after block n
    and the scratch buffers hold block n's high and low parts. -/
theorem inv (c : Dev nD) : ∀ (n : ℕ) (h : n < cfg0.N),
    (∀ (cc : Fin 128) (k : Fin 256), (outsAt0 m c n h).1 (ix3 (0 : Fin 1) cc k)
        = accAt (rowsOf (argX m c)) (segOf (argA m c) (argM m c)) n (lt16 h) cc k)
    ∧ (∀ (r : Fin 8192) (k : Fin 256), (outsAt0 m c n h).2.1 (ix2 r k) = hiCol (rowsOf (argX m c) ⟨n, lt16 h⟩ r) k)
    ∧ (∀ (r : Fin 8192) (k : Fin 256), (outsAt0 m c n h).2.2 (ix2 r k) = loCol (rowsOf (argX m c) ⟨n, lt16 h⟩ r) k)
  | 0, h => by
    obtain ⟨a, b, d⟩ := pointA m c ⟨0, h⟩ rfl
    exact ⟨fun cc k => (a cc k).trans rfl, b, d⟩
  | n + 1, h => by
    have ih := inv c n (Nat.lt_of_succ_lt h)
    by_cases h0 : (n + 1) % 8 = 0
    · obtain ⟨a, b, d⟩ := pointA m c ⟨n + 1, h⟩ h0
      refine ⟨fun cc k => (a cc k).trans ?_, b, d⟩
      show _ = (if (n + 1) % 8 = 0 then zeroF else accAt (rowsOf (argX m c)) (segOf (argA m c) (argM m c)) n (Nat.lt_of_succ_lt (lt16 h)) cc k)
        + blockTerm (rowsOf (argX m c) ⟨n + 1, lt16 h⟩) (segOf (argA m c) (argM m c) ⟨n + 1, lt16 h⟩) cc k
      rw [if_pos h0]
      rfl
    · obtain ⟨a, b, d⟩ := pointB m c ⟨n + 1, h⟩ h0
        (fun r k hk => (ih.2.1 r k).trans (hiCol_pad _ k hk)) (fun r k hk => (ih.2.2 r k).trans (loCol_pad _ k hk))
      refine ⟨fun cc k => (a cc k).trans ?_, b, d⟩
      show _ = (if (n + 1) % 8 = 0 then zeroF else accAt (rowsOf (argX m c)) (segOf (argA m c) (argM m c)) n (Nat.lt_of_succ_lt (lt16 h)) cc k)
        + blockTerm (rowsOf (argX m c) ⟨n + 1, lt16 h⟩) (segOf (argA m c) (argM m c) ⟨n + 1, lt16 h⟩) cc k
      rw [if_neg h0]
      exact congrArg (· + blockTerm (rowsOf (argX m c) ⟨n + 1, lt16 h⟩) (segOf (argA m c) (argM m c) ⟨n + 1, lt16 h⟩) cc k) (ih.1 cc k)

/-- The two halves' accumulators as contents of the region's result array. -/
abbrev G (c : Dev nD) : Buf (Elt Ideal) ((c : Thread nD τ).loc main_v3) := regionOut (argX m c) (argA m c) (argM m c)

/-- The result window's block at point t is half t / 8 of the array. -/
theorem idx_facts : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- The specification's entry, read at an index whose coordinates are known. -/
theorem regionOut_eq (X : SX.Idx → EReal) (A : SA.Idx → BitVec 32) (M : SA.Idx → BitVec 1) (i : SO.Idx) (n : ℕ) (hn : n < 16)
    (cc : Fin 128) (k : Fin 256) (h0 : 8 * (i 0).val + 7 = n) (h1 : (i 1).val = cc.val) (h2 : (i 2).val = k.val) :
    regionOut X A M i = accAt (rowsOf X) (segOf A M) n hn cc k := by
  subst h0
  have e1 : i 1 = cc := Fin.ext h1
  have e2 : i 2 = k := Fin.ext h2
  unfold regionOut
  rw [e1, e2]

/-- WHAT A HALF'S LAST POINT WRITES BACK is that half of the specification's array: the accumulator after the half's
    eighth block. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  have hN : t.val < 16 := lt16 t.isLt
  obtain ⟨e0, e1, e2⟩ := idx_facts t
  show (cfg0.win 2).cut (grid0.coords t) ((dats m 0 c).after 2 t) = _
  rw [after0_2]
  refine funext fun (y : S1x128x256.Idx) => ?_
  obtain ⟨u, cc, k, rfl⟩ : ∃ (u : Fin 1) (cc : Fin 128) (k : Fin 256), y = ix3 u cc k := ⟨y 0, y 1, y 2, eq_ix3 y⟩
  obtain rfl : u = 0 := Subsingleton.elim _ _
  show (outsAt0 m c t.val t.isLt).1 (ix3 (0 : Fin 1) cc k)
    = regionOut (argX m c) (argA m c) (argM m c) (((cfg0.win 2).blk t).view.emb (ix3 (0 : Fin 1) cc k))
  refine ((inv m c t.val t.isLt).1 cc k).trans (regionOut_eq _ _ _ _ t.val hN cc k ?_ ?_ ?_).symm
  · show 8 * (win0_2.index t (0 : Fin 3) * 1 + 1 * 0) + 7 = t.val
    rw [e0]; omega
  · show win0_2.index t (1 : Fin 3) * 128 + 1 * cc.val = cc.val
    rw [e1]; omega
  · show win0_2.index t (2 : Fin 3) * 256 + 1 * k.val = k.val
    rw [e2]; omega

/-- An index of the array is in point t's block iff each coordinate is in the block's range on its axis. -/
theorem mem_blk (t : Fin cfg0.N) (i : S2x128x256.Idx) :
    i ∈ ((cfg0.win 2).blk t).view.set ↔ ∀ a : Fin 3, win0_2.index t a * S1x128x256.size a ≤ (i a).val
      ∧ (i a).val < win0_2.index t a * S1x128x256.size a + S1x128x256.size a := by
  show i ∈ ((View.whole main_v3).slice (win0_2.rect t)).set ↔ _
  rw [View.set_slice_whole, Rect.mem_set_unit]
  exact Iff.rfl

/-- THE TWO BLOCKS WRITTEN BACK TILE THE ARRAY: half p is the block of point 8 p + 7. -/
theorem cover (i : S2x128x256.Idx) :
    ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 256 := (i 2).isLt
  have hN : cfg0.N = 16 := N_0
  have ht : 8 * (i 0).val + 7 < cfg0.N := by omega
  obtain ⟨e0, e1, e2⟩ := idx_facts ⟨8 * (i 0).val + 7, ht⟩
  refine ⟨⟨8 * (i 0).val + 7, ht⟩, (flush0_2 _).mpr (by show (8 * (i 0).val + 7) % 8 = 7; omega), ?_⟩
  rw [mem_blk]
  intro a
  match a with
  | ⟨0, _⟩ =>
    show win0_2.index ⟨8 * (i 0).val + 7, ht⟩ (0 : Fin 3) * 1 ≤ (i 0).val
      ∧ (i 0).val < win0_2.index ⟨8 * (i 0).val + 7, ht⟩ (0 : Fin 3) * 1 + 1
    rw [e0]
    show (8 * (i 0).val + 7) / 8 * 1 ≤ (i 0).val ∧ (i 0).val < (8 * (i 0).val + 7) / 8 * 1 + 1
    omega
  | ⟨1, _⟩ =>
    show win0_2.index ⟨8 * (i 0).val + 7, ht⟩ (1 : Fin 3) * 128 ≤ (i 1).val
      ∧ (i 1).val < win0_2.index ⟨8 * (i 0).val + 7, ht⟩ (1 : Fin 3) * 128 + 128
    rw [e1]; omega
  | ⟨2, _⟩ =>
    show win0_2.index ⟨8 * (i 0).val + 7, ht⟩ (2 : Fin 3) * 256 ≤ (i 2).val
      ∧ (i 2).val < win0_2.index ⟨8 * (i 0).val + 7, ht⟩ (2 : Fin 3) * 256 + 256
    rw [e2]; omega

/-- So the region's result array ends holding the specification's. -/
theorem final (c : Dev nD) : (dats m 0 c).arrAt 2 cfg0.N = G m c :=
  (dats m 0 c).arrAt_eq_of_cover 2 (G m c) (flushed_eq m c) (cover)

end Cert.SegStats.K.Value

namespace Cert.SegStats.K

open Cert.KernelIdeal Cert.KernelIdeal.Gen Cert.SegStats

variable (m : (ℓ : Loc nD τ sig) → Buf (Elt Ideal) ℓ)

/-- The two halves' accumulators, as contents of the region's result array. -/
abbrev outArr (c : Dev nD) : Buf (Elt Ideal) ((c : Thread nD τ).loc main_v3) := regionOut (argX m c) (argA m c) (argM m c)

/-- The region's result array ends holding them. -/
theorem final_out (c : Dev nD) : (dats m 0 c).arrAt 2 cfg0.N = outArr m c :=
  Value.final m c

end Cert.SegStats.K

end
-- ==== Proof.Tail.lean ====
/-
  The tail both programs end with, as one function of the per-column counts n and variances v: with
  multi_c = [n_c > 1], the number of such columns count = ∑_c multi_c and the total = ∑_c (multi_c ? v_c : 0),
  the result is total / max(count, 1) when count > 0 and 0 otherwise.
-/
import proofs.«419050_j75161927680447_3_alg».proof.Proof.Spec

noncomputable section

namespace Cert.SegStats

open Idealize.ShloMosaic Idealize.ShloMosaic.ValueIdx

theorem bcast0C : S0.BroadcastsInDim SC (![] : Fin 0 → Fin SC.rank) := by decide
theorem redC0 : SC.ReducesTo [0] S0 := by decide
theorem pos0 : 0 < S0.numel := by decide

/-- multi_c = [n_c > 1], as a one-bit word per column. -/
def multiOf (n : FVec Ideal SC .f32) : IVec SC 1 :=
  cmpf .ogt n (broadcastInDim SC ![] bcast0C (constant (F := Ideal) S0 .f32 0x3F800000#32))

/-- count, as a float. -/
def countOf (n : FVec Ideal SC .f32) : FVec Ideal S0 .f32 :=
  sitofp .f32 (Host.reduce IntOp.addi (extui 32 (multiOf n) (by decide)) (constantI S0 32 0#32) redC0 pos0)

/-- The mean, over the columns holding more than one token, of their variances; zero when no column does. -/
def finish (n v : FVec Ideal SC .f32) : FVec Ideal S0 .f32 :=
  select (cmpf .ogt (countOf n) (constant (F := Ideal) S0 .f32 0x00000000#32))
    (Host.divf (F := Ideal)
      (Host.reduceAdd (F := Ideal) (select (multiOf n) v (broadcastInDim SC ![] bcast0C (id (constant (F := Ideal) S0 .f32 0x00000000#32))))
        (constant (F := Ideal) S0 .f32 0x00000000#32) redC0 pos0)
      (maximumf (countOf n) (constant (F := Ideal) S0 .f32 0x3F800000#32)))
    (id (constant (F := Ideal) S0 .f32 0x00000000#32))

end Cert.SegStats

end
-- ==== Proof.KRun.lean ====
/-
  The streaming program's run, read: after the region the host lines sum the two halves, slice out the sums,
  the sums of squares and the counts, form the variances and finish; the arguments are untouched.
-/
import proofs.«419050_j75161927680447_3_alg».proof.Proof.KValue
import proofs.«419050_j75161927680447_3_alg».proof.Proof.Tail
import Idealize.ShloMosaic.PureOps.Ideal.Laws
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.SegStats.K

open Cert.KernelIdeal Cert.KernelIdeal.Gen Cert.SegStats

variable (m : (ℓ : Loc nD τ sig) → Buf (Elt Ideal) ℓ) (ρ : Dev nD → PrngReg)

/-- The program's result on core c: the shared tail of the streamed counts and variances. -/
def result (c : Dev nD) : Buf (Elt Ideal) ((c.tc : Thread nD τ).loc main_v39) :=
  finish (fun i => kN (outArr m c) (i 0)) (fun i => kVar (outArr m c) (i 0))

namespace Host

open scoped BigOperators

/-- Summing over the first axis of a [2, 128, 256] array leaves a [128, 256] one; summing over the second axis of a
    [128, 128] array leaves 128 entries. -/
theorem red0 : S2x128x256.Reduces [0] S128x256 := by decide
theorem red1 : S128x128.Reduces [1] S128 := by decide

section Tail
variable (O : SO.Idx → EReal)

/-- The two halves of the accumulator summed from zero. -/
def t4 : FVec Ideal S128x256 .f32 :=
  Host.reduceAdd (F := Ideal) (φ := .f32) (s := S2x128x256) O (constant (F := Ideal) S_ .f32 0x00000000#32)
    reducesTo_S2x128x256_S128x256_d0 h_S_
/-- Columns 0–127: the per-column sums of the softmax rows. -/
def t5 : FVec Ideal S128x128 .f32 := extractStridedSlice S128x128 ![0, 0] (t4 O) slices_S128x256_S128x128_0_0
/-- Column 128: the sums of the rows' sums of squares. -/
def t7 : FVec Ideal S128 .f32 :=
  shapeCast S128 (extractStridedSlice S128x1 ![0, 128] (t4 O) slices_S128x256_S128x1_0_128) shapeCasts_S128x1_S128
/-- Column 129: the counts. -/
def t9 : FVec Ideal S128 .f32 :=
  shapeCast S128 (extractStridedSlice S128x1 ![0, 129] (t4 O) slices_S128x256_S128x1_0_129) shapeCasts_S128x1_S128
/-- The counts clamped below at one. -/
def t11 : FVec Ideal S128 .f32 :=
  maximumf (t9 O) (broadcastInDim S128 ![] bcast_S_S128 (constant (F := Ideal) S_ .f32 0x3F800000#32))
/-- The column means. -/
def t14 : FVec Ideal S128x128 .f32 :=
  Host.divf (F := Ideal) (t5 O)
    (broadcastInDim S128x128 ![0, 1] bcast_S128x1_S128x128_0_1 (broadcastInDim S128x1 ![0] bcast_S128_S128x1_0 (t11 O)))
/-- ∑_j mean_j². -/
def t16 : FVec Ideal S128 .f32 :=
  Host.reduceAdd (F := Ideal) (mulf (t14 O) (t14 O)) (constant (F := Ideal) S_ .f32 0x00000000#32) reducesTo_S128x128_S128_d1 h_S_
/-- ∑_j mean_j s_j. -/
def t18 : FVec Ideal S128 .f32 :=
  Host.reduceAdd (F := Ideal) (mulf (t14 O) (t5 O)) (constant (F := Ideal) S_ .f32 0x00000000#32) reducesTo_S128x128_S128_d1 h_S_
/-- The variances. -/
def t28 : FVec Ideal S128 .f32 :=
  Host.divf (F := Ideal)
    (maximumf
      (addf (subf (t7 O) (mulf (broadcastInDim S128 ![] bcast_S_S128 (constant (F := Ideal) S_ .f32 0x40000000#32)) (t18 O)))
        (mulf (t9 O) (t16 O)))
      (broadcastInDim S128 ![] bcast_S_S128 (constant (F := Ideal) S_ .f32 0x00000000#32)))
    (mulf (t11 O) (broadcastInDim S128 ![] bcast_S_S128 (constant (F := Ideal) S_ .f32 0x43000000#32)))

/-- Entry (c, k) of the summed halves is zero plus the two halves' entries (c, k). -/
theorem t4_apply (c : Fin 128) (k : Fin 256) : t4 O (ix2 c k) = stats O c k := by
  unfold t4 stats
  rw [hostReduceAdd_apply, Ideal.hostReduceAdd_single _ red0]
  show zeroF + ∑ p : Fin 2, O (red0.lift (ix2 c k) p) = _
  refine congrArg (zeroF + ·) (Finset.sum_congr rfl fun p _ => congrArg O ?_)
  funext a; apply Fin.ext
  match a with
  | ⟨0, _⟩ => rfl
  | ⟨1, _⟩ => rfl
  | ⟨2, _⟩ => rfl

/-- Entry (c, j) of the first 128 columns is the sum s_{c,j}. -/
theorem t5_apply (c j : Fin 128) : t5 O (ix2 c j) = kS O c j := by
  unfold t5 kS
  refine (extractStridedSlice_apply _ _ _ _ (ix2 c (⟨j.val, by have := j.isLt; omega⟩ : Fin 256)) fun a => ?_).trans (t4_apply O c _)
  match a with
  | ⟨0, _⟩ => show c.val = 0 + c.val; omega
  | ⟨1, _⟩ => show j.val = 0 + j.val; omega

/-- Column 128, flattened: entry c is the summed entry (c, 128), the column's sum of squares. -/
theorem t7_apply (c : Fin 128) : t7 O (ix1 c) = stats O c ⟨128, by decide⟩ := by
  unfold t7
  refine (shapeCast_apply _ _ (ix1 c) (ix2 c (0 : Fin 1)) ?_).trans ?_
  · rw [Shape.rowMajor_val_two, Shape.rowMajor_val_one]
    show c.val * 1 + 0 = c.val; omega
  refine (extractStridedSlice_apply _ _ _ _ (ix2 c (⟨128, by decide⟩ : Fin 256)) fun a => ?_).trans (t4_apply O _ _)
  match a with
  | ⟨0, _⟩ => show c.val = 0 + c.val; omega
  | ⟨1, _⟩ => show 128 = 128 + 0; omega

/-- Column 129, flattened: entry c is the summed entry (c, 129), the count n_c. -/
theorem t9_apply (c : Fin 128) : t9 O (ix1 c) = kN O c := by
  unfold t9 kN
  refine (shapeCast_apply _ _ (ix1 c) (ix2 c (0 : Fin 1)) ?_).trans ?_
  · rw [Shape.rowMajor_val_two, Shape.rowMajor_val_one]
    show c.val * 1 + 0 = c.val; omega
  refine (extractStridedSlice_apply _ _ _ _ (ix2 c (⟨129, by decide⟩ : Fin 256)) fun a => ?_).trans (t4_apply O _ _)
  match a with
  | ⟨0, _⟩ => show c.val = 0 + c.val; omega
  | ⟨1, _⟩ => show 129 = 129 + 0; omega

/-- max(n_c, 1). -/
theorem t11_apply (c : Fin 128) : t11 O (ix1 c) = kSafe O c := by
  unfold t11 kSafe
  rw [maximumf_apply, t9_apply, broadcastInDim_scalar_apply, constant_apply]

/-- The mean's entry (c, j) is s_{c,j} / max(n_c, 1): the divisor is column c's clamped count, repeated along j. -/
theorem t14_apply (c j : Fin 128) : t14 O (ix2 c j) = kMean O c j := by
  unfold t14 kMean
  rw [hostDivf_apply, t5_apply]
  refine congrArg (Ideal.div (kS O c j)) ?_
  refine (broadcastInDim_apply _ _ _ _ (ix2 c (0 : Fin 1)) fun a => ?_).trans ?_
  · match a with
    | ⟨0, _⟩ => rfl
    | ⟨1, _⟩ => rfl
  refine (broadcastInDim_apply _ _ _ _ (ix1 c) fun a => ?_).trans (t11_apply O c)
  match a with
  | ⟨0, _⟩ => rfl

/-- The index a sum over the second axis visits at j, for the reduced index c, is (c, j). -/
theorem lift1 (c j : Fin 128) : red1.lift (ix1 c) j = ix2 c j := by
  funext a; apply Fin.ext
  match a with
  | ⟨0, _⟩ => rfl
  | ⟨1, _⟩ => rfl

/-- The row sums of the squared means, from zero. -/
theorem t16_apply (c : Fin 128) : t16 O (ix1 c) = zeroF + ∑ j : Fin 128, kMean O c j * kMean O c j := by
  unfold t16
  rw [hostReduceAdd_apply, Ideal.hostReduceAdd_single _ red1]
  show zeroF + ∑ j : Fin 128, mulf (t14 O) (t14 O) (red1.lift (ix1 c) j) = _
  refine congrArg (zeroF + ·) (Finset.sum_congr rfl fun j _ => ?_)
  rw [lift1, mulf_apply, t14_apply]

/-- The row sums of mean times sum, from zero. -/
theorem t18_apply (c : Fin 128) : t18 O (ix1 c) = zeroF + ∑ j : Fin 128, kMean O c j * kS O c j := by
  unfold t18
  rw [hostReduceAdd_apply, Ideal.hostReduceAdd_single _ red1]
  show zeroF + ∑ j : Fin 128, mulf (t14 O) (t5 O) (red1.lift (ix1 c) j) = _
  refine congrArg (zeroF + ·) (Finset.sum_congr rfl fun j _ => ?_)
  rw [lift1, mulf_apply, t14_apply, t5_apply]

/-- Entry c of the variance vector is the streamed variance of column c:
    max((q_c − 2 ∑_j mean_j s_j) + n_c ∑_j mean_j², 0) / (max(n_c, 1) · 128). -/
theorem t28_apply (c : Fin 128) : t28 O (ix1 c) = kVar O c := by
  unfold t28 kVar kSsd
  rw [hostDivf_apply, maximumf_apply, addf_apply, subf_apply, mulf_apply, mulf_apply, mulf_apply,
    t7_apply, t18_apply, t9_apply, t16_apply, t11_apply,
    broadcastInDim_scalar_apply, broadcastInDim_scalar_apply, broadcastInDim_scalar_apply,
    constant_apply, constant_apply, constant_apply]

/-- The count vector and the variance vector, as functions of the column. -/
theorem t9_eq : t9 O = fun i => kN O (i 0) := by
  funext i
  obtain ⟨c, rfl⟩ : ∃ c : Fin 128, i = ix1 c := ⟨i 0, eq_ix1 i⟩
  exact t9_apply O c
theorem t28_eq : t28 O = fun i => kVar O (i 0) := by
  funext i
  obtain ⟨c, rfl⟩ : ∃ c : Fin 128, i = ix1 c := ⟨i 0, eq_ix1 i⟩
  exact t28_apply O c

end Tail

/-- The region's result array as the lines after the region find it. -/
theorem arr_out (c : Dev nD) :
    Pipeline.withArrays (cfgs 0).spec c (V0 m c) (fun w => (dats m 0 c).arrAt w (cfgs 0).N) (Proc.devRef .tc main_v3)
      = outArr m c :=
  (Pipeline.withArrays_arr spec0 launch0.win.arr_inj c _ _ 2).trans (final_out m c)

set_option maxHeartbeats 1600000 in
/-- The lines after the region leave the shared tail of the streamed counts and variances in the result buffer. -/
theorem tail_v39 (c : Dev nD) :
    Pipeline.afterTail₀ cfgs (dats m) 0 (V0 m) [hostOps1, hostOps1_1, hostOps1_2, hostOps1_3] c main_v39 = result m c := by
  unfold Pipeline.afterTail₀
  simp only [Gen.hostOps1, Gen.hostOps1_1, Gen.hostOps1_2, Gen.hostOps1_3, List.flatten_cons, List.flatten_nil,
    List.append_nil, List.cons_append, List.nil_append]
  after_results_simp
  rw [arr_out m c]
  refine Eq.trans ?_ (congrArg₂ finish (t9_eq (outArr m c)) (t28_eq (outArr m c)))
  rfl

end Host

theorem run : θ_run defs (onTc (τ := τ) (main (F := Ideal))) ⟨m, fun _ => 0, ρ⟩ fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v39 (Pipeline.mem_restRefs_of main_v39 (by decide) (by decide))).trans (Host.tail_v39 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.SegStats.K
end
-- ==== Proof.RefValue.lean ====
/-
  The two-pass program's result, read one operation at a time: the softmax rows, the three accumulating
  scatters (a token's update lands on the column its segment word names, read signed, and is dropped when that
  is no column), the gather of the mean table (a negative index wrapped by 128, then clamped), and the shared tail.
-/
import proofs.«419050_j75161927680447_3_alg».proof.Defs
import proofs.«419050_j75161927680447_3_alg».proof.Proof.RefRun
import proofs.«419050_j75161927680447_3_alg».proof.Proof.RefRead
import proofs.«419050_j75161927680447_3_alg».proof.Proof.Spec
import proofs.«419050_j75161927680447_3_alg».proof.Proof.Tail
import Idealize.ShloMosaic.Lib.ValueLayout

set_option maxRecDepth 16384

noncomputable section

open Idealize.ShloMosaic Idealize.ShloMosaic.TcCoe Idealize.SL.Sem Idealize.ShloMosaic.ValueIdx

namespace Cert.SegStats.R

open Cert.ReferenceIdeal Cert.ReferenceIdeal.Gen Cert.SegStats

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A filtered sum whose predicate is known up to equivalence is the sum of an if. -/
theorem sum_filter_of_iff {ι : Type*} [Fintype ι] (p q : ι → Prop) [DecidablePred p] [DecidablePred q]
    (h : ∀ j, p j ↔ q j) (f : ι → EReal) :
    ∑ j ∈ Finset.univ.filter p, f j = ∑ j, if q j then f j else 0 := by
  rw [Finset.sum_filter]
  refine Finset.sum_congr rfl fun j _ => ?_
  by_cases hq : q j
  · rw [if_pos hq, if_pos ((h j).mpr hq)]
  · rw [if_neg hq, if_neg (fun hp => hq ((h j).mp hp))]

abbrev d1 := scatter_S128_S131072x1_S131072_n_0_0_1
abbrev d2 := scatter_S128x128_S131072x1_S131072x128_1_0_0_1
abbrev dG := gather_S128x128_S131072x1_S131072x128_1_0_n_n_0_1_1128

theorem d1_start (idx : IVec S131072x1 32) (j : S131072.Idx) :
    d1.start j idx 0 = (idx (ix2 (j 0) 0)).toInt := by
  unfold ScatterDims.start
  rw [dif_pos (show (0 : Fin 1) ∈ d1.scatterDimsToOperandDims from List.mem_singleton.mpr rfl)]
  have hsi : d1.siIdx j ⟨List.idxOf (0 : Fin 1) d1.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem d1_window (j : S131072.Idx) : d1.window j 0 = 0 := by
  unfold ScatterDims.window
  rw [dif_neg (by decide)]

theorem d1_iff (idx : IVec S131072x1 32) (j : S131072.Idx) (i : S128.Idx) :
    d1.resultIdx? j idx = some i ↔ (idx (ix2 (j 0) 0)).toInt = ((i 0).val : Int) := by
  have hs := d1_start idx j
  have hw := d1_window j
  have hi : (i 0).val < 128 := (i 0).isLt
  unfold ScatterDims.resultIdx?
  constructor
  · intro h
    split at h
    · rename_i hc
      have h0 := congrArg (fun f => (f 0).val) (Option.some.inj h)
      simp only [hs, hw] at h0
      have := hc 0
      rw [hs, hw] at this
      omega
    · cases h
  · intro h
    have hc : ∀ a, 0 ≤ d1.start j idx a + d1.window j a ∧ d1.start j idx a + d1.window j a < S128.size a := by
      intro a
      obtain rfl : a = 0 := Subsingleton.elim _ _
      rw [hs, hw, h]
      show (0 : Int) ≤ ((i 0).val : Int) + ((0 : Nat) : Int) ∧ ((i 0).val : Int) + ((0 : Nat) : Int) < ((128 : Nat) : Int)
      omega
    rw [dif_pos hc]
    congr 1
    funext a
    obtain rfl : a = 0 := Subsingleton.elim _ _
    refine Fin.ext ?_
    show (d1.start j idx 0 + d1.window j 0).toNat = (i 0).val
    rw [hs, hw, h]
    omega

/-- The count scatter at column c: the operand there plus the updates of the tokens whose index word, read signed, is c. -/
theorem scatter1_apply (x : S128.Idx → EReal) (idx : IVec S131072x1 32) (upd : S131072.Idx → EReal) (c : Fin 128) :
    Ideal.hostScatterAdd d1 x idx upd (ix1 c)
      = x (ix1 c) + ∑ t : Fin 131072, if (idx (ix2 t 0)).toInt = (c.val : Int) then upd (ix1 t) else 0 := by
  unfold Ideal.hostScatterAdd
  rw [sum_filter_of_iff _ _ (fun j => d1_iff idx j (ix1 c)), sum_idx1]

theorem d2_start0 (idx : IVec S131072x1 32) (j : S131072x128.Idx) :
    d2.start j idx 0 = (idx (ix2 (j 0) 0)).toInt := by
  unfold ScatterDims.start
  rw [dif_pos (show (0 : Fin 2) ∈ d2.scatterDimsToOperandDims from List.mem_singleton.mpr rfl)]
  have hsi : d2.siIdx j ⟨List.idxOf (0 : Fin 2) d2.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem d2_start1 (idx : IVec S131072x1 32) (j : S131072x128.Idx) : d2.start j idx 1 = 0 := by
  unfold ScatterDims.start
  rw [dif_neg (by decide)]

theorem d2_window0 (j : S131072x128.Idx) : d2.window j 0 = 0 := by
  unfold ScatterDims.window
  rw [dif_neg (by decide)]

theorem d2_window1 (j : S131072x128.Idx) : d2.window j 1 = (j 1).val := by
  unfold ScatterDims.window
  rw [dif_pos (by decide)]
  rfl

theorem d2_iff (idx : IVec S131072x1 32) (j : S131072x128.Idx) (i : S128x128.Idx) :
    d2.resultIdx? j idx = some i ↔ ((idx (ix2 (j 0) 0)).toInt = ((i 0).val : Int) ∧ (j 1).val = (i 1).val) := by
  have hs0 := d2_start0 idx j
  have hs1 := d2_start1 idx j
  have hw0 := d2_window0 j
  have hw1 := d2_window1 j
  have hi0 : (i 0).val < 128 := (i 0).isLt
  have hi1 : (i 1).val < 128 := (i 1).isLt
  have hj1 : (j 1).val < 128 := (j 1).isLt
  unfold ScatterDims.resultIdx?
  constructor
  · intro h
    split at h
    · rename_i hc
      have h0 := congrArg (fun f => (f 0).val) (Option.some.inj h)
      have h1 := congrArg (fun f => (f 1).val) (Option.some.inj h)
      simp only [hs0, hw0] at h0
      simp only [hs1, hw1] at h1
      have c0 := hc 0
      rw [hs0, hw0] at c0
      omega
    · cases h
  · rintro ⟨h, h'⟩
    have hc : ∀ a, 0 ≤ d2.start j idx a + d2.window j a ∧ d2.start j idx a + d2.window j a < S128x128.size a := by
      intro a
      match a with
      | ⟨0, _⟩ =>
        show 0 ≤ d2.start j idx 0 + d2.window j 0 ∧ d2.start j idx 0 + d2.window j 0 < ((128 : Nat) : Int)
        rw [hs0, hw0, h]; omega
      | ⟨1, _⟩ =>
        show 0 ≤ d2.start j idx 1 + d2.window j 1 ∧ d2.start j idx 1 + d2.window j 1 < ((128 : Nat) : Int)
        rw [hs1, hw1]; omega
    rw [dif_pos hc]
    congr 1
    funext a
    refine Fin.ext ?_
    match a with
    | ⟨0, _⟩ =>
      show (d2.start j idx 0 + d2.window j 0).toNat = (i 0).val
      rw [hs0, hw0, h]; omega
    | ⟨1, _⟩ =>
      show (d2.start j idx 1 + d2.window j 1).toNat = (i 1).val
      rw [hs1, hw1]; omega

/-- The table scatter at (c, j): the operand there plus, over the tokens whose index word read signed is c, their update's entry j. -/
theorem scatter2_apply (x : S128x128.Idx → EReal) (idx : IVec S131072x1 32) (upd : S131072x128.Idx → EReal) (c j : Fin 128) :
    Ideal.hostScatterAdd d2 x idx upd (ix2 c j)
      = x (ix2 c j) + ∑ t : Fin 131072, if (idx (ix2 t 0)).toInt = (c.val : Int) then upd (ix2 t j) else 0 := by
  unfold Ideal.hostScatterAdd
  rw [sum_filter_of_iff _ _ (fun u => d2_iff idx u (ix2 c j)), sum_idx2]
  refine congrArg (_ + ·) (Finset.sum_congr rfl fun t _ => ?_)
  show (∑ k : Fin 128, if ((idx (ix2 t 0)).toInt = (c.val : Int) ∧ k.val = j.val) then upd (ix2 t k) else 0) = _
  by_cases hP : (idx (ix2 t 0)).toInt = (c.val : Int)
  · rw [if_pos hP]
    rw [Finset.sum_eq_single j]
    · rw [if_pos ⟨hP, rfl⟩]
    · intro k _ hk
      rw [if_neg (fun h => hk (Fin.ext h.2))]
    · intro h; exact absurd (Finset.mem_univ j) h
  · rw [if_neg hP]
    exact Finset.sum_eq_zero fun k _ => if_neg (fun h => hP h.1)

/-- The gather's operand index at (t, j): the row named by the start word read signed and clamped into the table, column j. -/
theorem gather_apply {α : Type} (x : S128x128.Idx → α) (idx : IVec S131072x1 32) (t : Fin 131072) (j : Fin 128) :
    Host.gather dG x idx (ix2 t j) = x (ix2 ⟨min (idx (ix2 t 0)).toInt.toNat 127, by omega⟩ j) := by
  unfold Host.gather
  congr 1
  funext a
  refine Fin.ext ?_
  match a with
  | ⟨0, _⟩ =>
    show dG.start (ix2 t j) idx 0 + dG.batchCoord (ix2 t j) 0 + dG.offCoord (ix2 t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dG.startIndexMap from List.mem_singleton.mpr rfl)]
    have hsi : dG.siIdx (ix2 t j) ⟨List.idxOf (0 : Fin 2) dG.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | ⟨1, _⟩ =>
    show dG.start (ix2 t j) idx 1 + dG.batchCoord (ix2 t j) 1 + dG.offCoord (ix2 t j) 1 = j.val
    rw [GatherDims.batchCoord_eq_zero _ _ _ List.not_mem_nil]
    unfold GatherDims.start GatherDims.offCoord
    rw [dif_neg (by decide), dif_pos (by decide)]
    simp only [Nat.add_zero, Nat.zero_add]
    rfl

/-! ## The stages at an index -/

section Stages
open Cert.ReferenceIdeal.Read

variable (X : SX.Idx → EReal) (A : SA.Idx → BitVec 32) (M : SA.Idx → BitVec 1)

/-- −∞ is the least extended real: a maximum with it is the other operand. -/
theorem max_negInf (y : EReal) : max negInf y = y := by
  show max (Ideal.ofBits .f32 0xFF800000#32) y = y
  simp [Ideal.ofBits, Ideal.ieee]

theorem zeroF_eq : zeroF = 0 := Ideal.ofBits_zero_f32

theorem redX : S16x8192x128.Reduces [2] S16x8192 := by decide

/-- The row index (b, r) with logit k put back is (b, r, k). -/
theorem lift_ix3 (b : Fin 16) (r : Fin 8192) (k : Fin (S16x8192x128.size 2)) :
    redX.lift (ix2 b r) k = ix3 b r (⟨k.val, k.isLt⟩ : Fin 128) := by
  funext c; apply Fin.ext
  fin_cases c <;> rfl

theorem v0_at (b : Fin 16) (r : Fin 8192) : val_main_v0 (F := Ideal) X (ix2 b r) = rowMax (rowsOf X b r) := by
  unfold val_main_v0
  refine (Host.reduce_eq_fold_single (FloatOps.maximumf (F := Ideal) (φ := .f32)) X (val_main_cst (F := Ideal))
    reducesTo_S16x8192x128_S16x8192_d2 redX h_S_ (ix2 b r)).trans ?_
  have hf : (X ∘ redX.lift (ix2 b r)) = fun k : Fin 128 => rowsOf X b r k := funext fun k => congrArg X (lift_ix3 b r k)
  unfold rowMax
  exact congrArg (fun f => Finset.fold max negInf f (Finset.univ : Finset (Fin 128))) hf

theorem v2_at (b : Fin 16) (r : Fin 8192) : val_main_v2 (F := Ideal) X (ix2 b r) = rowMax (rowsOf X b r) := by
  rw [val_main_v2_apply, val_main_v1_apply, val_main_cst_0_apply, v0_at]
  exact max_negInf _

theorem idx34 (b : Fin 16) (r : Fin 8192) (j : Fin 128) : idx_main_v3 (idx_main_v4 (ix3 b r j)) = ix2 b r :=
  funext fun a => Fin.ext (by match a with | ⟨0, _⟩ => rfl | ⟨1, _⟩ => rfl)

theorem v6_at (b : Fin 16) (r : Fin 8192) (j : Fin 128) :
    val_main_v6 (F := Ideal) X (ix3 b r j) = rowExp (rowsOf X b r) j := by
  rw [val_main_v6_apply, val_main_v5_apply, val_main_v4_apply, val_main_v3_apply, idx34, v2_at]
  rfl

theorem idx7 (b : Fin 16) (r : Fin 8192) (k : Fin 128) : idx_main_v7 (ix2 b r) k = ix3 b r k :=
  funext fun a => Fin.ext (by match a with | ⟨0, _⟩ => rfl | ⟨1, _⟩ => rfl | ⟨2, _⟩ => rfl)

theorem v7_at (b : Fin 16) (r : Fin 8192) :
    val_main_v7 (F := Ideal) X (ix2 b r) = ∑ k : Fin 128, rowExp (rowsOf X b r) k := by
  rw [val_main_v7_apply, val_main_cst_1_apply]
  show zeroF + _ = _
  rw [zeroF_eq, zero_add]
  exact Finset.sum_congr rfl fun k _ => by rw [idx7, v6_at]

theorem idx89 (b : Fin 16) (r : Fin 8192) (j : Fin 128) : idx_main_v8 (idx_main_v9 (ix3 b r j)) = ix2 b r :=
  funext fun a => Fin.ext (by match a with | ⟨0, _⟩ => rfl | ⟨1, _⟩ => rfl)

theorem v10_at (b : Fin 16) (r : Fin 8192) (j : Fin 128) :
    val_main_v10 (F := Ideal) X (ix3 b r j) = prob (rowsOf X b r) j := by
  rw [val_main_v10_apply, val_main_v9_apply, val_main_v8_apply, idx89, v7_at, v6_at]
  rfl

theorem idx11 (t : Fin 131072) (j : Fin 128) : idx_main_v11 (ix2 t j) = ix3 (tokB t) (tokR t) j :=
  funext fun a => Fin.ext (by
    have ht : t.val < 131072 := t.isLt
    have hj : j.val < 128 := j.isLt
    match a with
    | ⟨0, _⟩ => show (t.val * 128 + j.val) / 1048576 = t.val / 8192; omega
    | ⟨1, _⟩ => show (t.val * 128 + j.val) / 128 % 8192 = t.val % 8192; omega
    | ⟨2, _⟩ => show (t.val * 128 + j.val) % 128 = j.val; omega)

theorem v11_at (t : Fin 131072) (j : Fin 128) : val_main_v11 (F := Ideal) X (ix2 t j) = pOf X t j := by
  rw [val_main_v11_apply, idx11, v10_at]
  rfl

theorem idx12 (t : Fin 131072) : idx_main_v12 (ix1 t) = ix2 (tokB t) (tokR t) :=
  funext fun a => Fin.ext (by match a with | ⟨0, _⟩ => rfl | ⟨1, _⟩ => rfl)

theorem v12_at (t : Fin 131072) : val_main_v12 (F := Ideal) A (ix1 t) = aOf A t := by
  rw [val_main_v12_apply, idx12]
  rfl

theorem idx13 (t : Fin 131072) : idx_main_v13 (ix1 t) = ix2 (tokB t) (tokR t) :=
  funext fun a => Fin.ext (by match a with | ⟨0, _⟩ => rfl | ⟨1, _⟩ => rfl)

theorem v14_at (t : Fin 131072) : val_main_v14 (F := Ideal) M (ix1 t) = wOf M t := by
  rw [val_main_v14_apply, val_main_v13_apply, idx13]
  rfl

theorem idxCol (t : Fin 131072) : idx_main_v16 (ix2 t (0 : Fin 1)) = ix1 t :=
  funext fun a => Fin.ext (by match a with | ⟨0, _⟩ => rfl)

/-- The scatter's index words: token t's segment word. -/
theorem v16_at (t : Fin 131072) : val_main_v16 (F := Ideal) A (ix2 t 0) = aOf A t := by
  rw [val_main_v16_apply, idxCol, v12_at]

theorem v22_at (t : Fin 131072) : val_main_v22 (F := Ideal) A (ix2 t 0) = aOf A t := by
  rw [val_main_v22_apply]; exact (congrArg _ (idxCol t)).trans (v12_at A t)

theorem v42_at (t : Fin 131072) : val_main_v42 (F := Ideal) A (ix2 t 0) = aOf A t := by
  rw [val_main_v42_apply]; exact (congrArg _ (idxCol t)).trans (v12_at A t)

theorem v17_at (c : Fin 128) : val_main_v17 (F := Ideal) A M (ix1 c) = rN A M c := by
  unfold val_main_v17
  show Ideal.hostScatterAdd d1 _ _ _ (ix1 c) = _
  rw [scatter1_apply, val_main_v15_apply, val_main_cst_2_apply]
  unfold rN
  refine congrArg (zeroF + ·) (Finset.sum_congr rfl fun t _ => ?_)
  rw [v16_at, v14_at]

theorem idx1819 (t : Fin 131072) (j : Fin 128) : idx_main_v18 (idx_main_v19 (ix2 t j)) = ix1 t :=
  funext fun a => Fin.ext (by match a with | ⟨0, _⟩ => rfl)

theorem v19_at (t : Fin 131072) (j : Fin 128) : val_main_v19 (F := Ideal) M (ix2 t j) = wOf M t := by
  rw [val_main_v19_apply, val_main_v18_apply, idx1819, v14_at]

theorem v39_at (t : Fin 131072) (j : Fin 128) : val_main_v39 (F := Ideal) M (ix2 t j) = wOf M t := by
  rw [val_main_v39_apply, val_main_v38_apply]
  exact (congrArg _ (idx1819 t j)).trans (v14_at M t)

theorem v20_at (t : Fin 131072) (j : Fin 128) :
    val_main_v20 (F := Ideal) X M (ix2 t j) = pOf X t j * wOf M t := by
  rw [val_main_v20_apply, v11_at, v19_at]
  rfl

theorem v23_at (c j : Fin 128) : val_main_v23 (F := Ideal) X A M (ix2 c j) = rS X A M c j := by
  unfold val_main_v23
  show Ideal.hostScatterAdd d2 _ _ _ (ix2 c j) = _
  rw [scatter2_apply, val_main_v21_apply, val_main_cst_3_apply]
  unfold rS
  refine congrArg (zeroF + ·) (Finset.sum_congr rfl fun t _ => ?_)
  rw [v22_at, v20_at]

theorem v25_at (c : Fin 128) : val_main_v25 (F := Ideal) A M (ix1 c) = rSafe A M c := by
  rw [val_main_v25_apply, v17_at, val_main_v24_apply, val_main_cst_4_apply]
  rfl

theorem idx2627 (c j : Fin 128) : idx_main_v26 (idx_main_v27 (ix2 c j)) = ix1 c :=
  funext fun a => Fin.ext (by match a with | ⟨0, _⟩ => rfl)

theorem v28_at (c j : Fin 128) : val_main_v28 (F := Ideal) X A M (ix2 c j) = rMean X A M c j := by
  rw [val_main_v28_apply, v23_at, val_main_v27_apply, val_main_v26_apply, idx2627, v25_at]
  rfl

/-- The gather's start word: the segment word, a negative one wrapped by 128. -/
theorem v33_at (t : Fin 131072) :
    val_main_v33 (F := Ideal) A (ix1 t) = if (aOf A t).slt 0#32 then aOf A t + 128#32 else aOf A t := by
  rw [val_main_v33_apply, val_main_v30_apply, val_main_v32_apply, val_main_v29_apply, val_main_v31_apply,
    val_main_c_apply, val_main_c_5_apply, v12_at]
  unfold IntOp.cmpi Scalar.select
  cases h : (aOf A t).slt 0#32
  · simp [IntOp.addi]
  · simp [IntOp.addi]

theorem v34_at (t : Fin 131072) :
    val_main_v34 (F := Ideal) A (ix2 t 0) = if (aOf A t).slt 0#32 then aOf A t + 128#32 else aOf A t := by
  rw [val_main_v34_apply]
  exact (congrArg _ (idxCol t)).trans (v33_at A t)

theorem v35_at (t : Fin 131072) (j : Fin 128) :
    val_main_v35 (F := Ideal) X A M (ix2 t j) = rMean X A M (gRow A t) j := by
  unfold val_main_v35
  show Host.gather dG _ _ (ix2 t j) = _
  rw [gather_apply, v28_at]
  congr 1
  refine Fin.ext ?_
  show min (val_main_v34 (F := Ideal) A (ix2 t 0)).toInt.toNat 127 = _
  rw [v34_at]
  rfl

theorem v40_at (t : Fin 131072) (j : Fin 128) :
    val_main_v40 (F := Ideal) X A M (ix2 t j) = rSq X A M t j := by
  rw [val_main_v40_apply, val_main_v37_apply, val_main_v36_apply, v11_at, v35_at, v39_at]
  rfl

theorem v43_at (c j : Fin 128) : val_main_v43 (F := Ideal) X A M (ix2 c j) = rSsd X A M c j := by
  unfold val_main_v43
  show Ideal.hostScatterAdd d2 _ _ _ (ix2 c j) = _
  rw [scatter2_apply, val_main_v41_apply, val_main_cst_6_apply]
  unfold rSsd
  refine congrArg (zeroF + ·) (Finset.sum_congr rfl fun t _ => ?_)
  rw [v42_at, v40_at]

theorem idx44 (c k : Fin 128) : idx_main_v44 (ix1 c) k = ix2 c k :=
  funext fun a => Fin.ext (by match a with | ⟨0, _⟩ => rfl | ⟨1, _⟩ => rfl)

theorem v47_at (c : Fin 128) : val_main_v47 (F := Ideal) X A M (ix1 c) = rVar X A M c := by
  rw [val_main_v47_apply, val_main_v44_apply, val_main_cst_7_apply, val_main_v46_apply, v25_at,
    val_main_v45_apply, val_main_cst_8_apply]
  unfold rVar
  show Ideal.div (zeroF + _) (rSafe A M c * c128F) = _
  refine congrArg (fun s => Ideal.div (zeroF + s) (rSafe A M c * c128F)) (Finset.sum_congr rfl fun k _ => ?_)
  rw [idx44, v43_at]

theorem v17_eq : val_main_v17 (F := Ideal) A M = fun i => rN A M (i 0) :=
  funext fun i => by rw [eq_ix1 i]; exact v17_at A M (i 0)

theorem v47_eq : val_main_v47 (F := Ideal) X A M = fun i => rVar X A M (i 0) :=
  funext fun i => by rw [eq_ix1 i]; exact v47_at X A M (i 0)

/-- From the counts and the variances on, the program is the shared tail. -/
theorem v58_tail : val_main_v58 (F := Ideal) X A M = finish (val_main_v17 (F := Ideal) A M) (val_main_v47 (F := Ideal) X A M) := by
  unfold val_main_v58 val_main_v57 val_main_v56 val_main_v55 val_main_v54 val_main_v53 val_main_v52 val_main_v51
    val_main_v50 val_main_v49 val_main_v48 val_main_call1_v0 val_main_call0_v1 val_main_call0_v0
    val_main_cst_9 val_main_c_10 val_main_cst_11 val_main_cst_12 val_main_cst_13 val_main_cst_14 val_main_cst_15
  rfl

end Stages

variable (m : (ℓ : Loc nD τ sig) → Buf (Elt Ideal) ℓ)

abbrev argX (c : Dev nD) : SX.Idx → EReal := m ((c.tc : Thread nD τ).loc main_arg0)
abbrev argA (c : Dev nD) : SA.Idx → BitVec 32 := m ((c.tc : Thread nD τ).loc main_arg1)
abbrev argM (c : Dev nD) : SA.Idx → BitVec 1 := m ((c.tc : Thread nD τ).loc main_arg2)

/-- The program's result on core c: the shared tail of the two-pass counts and variances. -/
def result (c : Dev nD) : Buf (Elt Ideal) ((c.tc : Thread nD τ).loc main_v58) :=
  finish (fun i => rN (argA m c) (argM m c) (i 0)) (fun i => rVar (argX m c) (argA m c) (argM m c) (i 0))

theorem ref_result (c : Dev nD) : Cert.ReferenceIdeal.Value.res_main_v58 (F := Ideal) m c = result m c := by
  rw [Cert.ReferenceIdeal.Read.val_main_v58_eq]
  unfold result
  rw [← v17_eq (argA m c) (argM m c), ← v47_eq (argX m c) (argA m c) (argM m c)]
  exact v58_tail (argX m c) (argA m c) (argM m c)

end Cert.SegStats.R

end
-- ==== Proof.RealSpec.lean ====
/-
  The same statistics over the reals, for tokens (b, r) with softmax rows p and column indicators o ∈ {0, 1}:
  the counts, the sums, the sums of squares, the means, and the two spellings of the per-column variance.
-/
import Mathlib.Analysis.SpecialFunctions.Exp
import Mathlib.Algebra.BigOperators.Fin
import Mathlib.Data.EReal.Basic

noncomputable section

open scoped BigOperators

namespace Cert.SegStats

variable (p : Fin 16 → Fin 8192 → Fin 128 → ℝ) (o : Fin 16 → Fin 8192 → Fin 128 → ℝ)

/-- n_c = ∑_{b,r} o. -/
def nR (c : Fin 128) : ℝ := ∑ b : Fin 16, ∑ r : Fin 8192, o b r c
/-- s_{c,j} = ∑_{b,r} o · p_j. -/
def sR (c j : Fin 128) : ℝ := ∑ b : Fin 16, ∑ r : Fin 8192, o b r c * p b r j
/-- q_c = ∑_{b,r} o · ∑_j p_j². -/
def qR (c : Fin 128) : ℝ := ∑ b : Fin 16, ∑ r : Fin 8192, o b r c * ∑ j : Fin 128, p b r j * p b r j
/-- mean_{c,j} = s_{c,j} / max(n_c, 1). -/
def muR (c j : Fin 128) : ℝ := sR p o c j / max (nR o c) 1
/-- The one-pass variance: max(q − 2 ∑_j mean_j s_j + n ∑_j mean_j², 0) / (max(n, 1) · 128). -/
def streamVar (c : Fin 128) : ℝ :=
  max (qR p o c - 2 * ∑ j : Fin 128, muR p o c j * sR p o c j + nR o c * ∑ j : Fin 128, muR p o c j * muR p o c j) 0
    / (max (nR o c) 1 * 128)
/-- The two-pass variance: ∑_j ∑_{b,r} o · (p_j − mean_j)² / (max(n, 1) · 128). -/
def twoPassVar (c : Fin 128) : ℝ :=
  (∑ j : Fin 128, ∑ b : Fin 16, ∑ r : Fin 8192, o b r c * ((p b r j - muR p o c j) * (p b r j - muR p o c j)))
    / (max (nR o c) 1 * 128)

end Cert.SegStats

end
-- ==== Proof.Softmax.lean ====
/-
  A softmax row of finite logits is a row of real numbers: the maximum of finitely many reals is real, every
  exponential is a positive real, so the denominator is a positive real and each quotient is real.
-/
import proofs.«419050_j75161927680447_3_alg».proof.Proof.Spec
import proofs.«419050_j75161927680447_3_alg».proof.Proof.RealSpec

noncomputable section

open scoped BigOperators

namespace Cert.SegStats

open Idealize.ShloMosaic Idealize.ShloMosaic.ValueIdx

namespace Softmax

/-- The starting value of the row maximum is −∞. -/
theorem negInf_eq_bot : negInf = (⊥ : EReal) := by simp [negInf, Ideal.ofBits, Ideal.ieee]

/-- The maximum, folded from −∞, of a nonempty finite family of reals is a real: it lies strictly below +∞
    because every member does, and strictly above −∞ because some member does. -/
theorem rowMax_real (xr : Fin 128 → ℝ) : ∃ m : ℝ, rowMax (fun j => (xr j : EReal)) = (m : EReal) := by
  have hlt : rowMax (fun j => (xr j : EReal)) < ⊤ := by
    unfold rowMax
    rw [Finset.fold_max_lt, negInf_eq_bot]
    exact ⟨bot_lt_top, fun j _ => EReal.coe_lt_top _⟩
  have hgt : ⊥ < rowMax (fun j => (xr j : EReal)) := by
    unfold rowMax
    rw [Finset.lt_fold_max]
    exact Or.inr ⟨0, Finset.mem_univ _, EReal.bot_lt_coe _⟩
  exact ⟨_, (EReal.coe_toReal hlt.ne hgt.ne').symm⟩

/-- A finite sum of reals, taken in the extended reals, is the real sum. -/
theorem coe_sum (f : Fin 128 → ℝ) (s : Finset (Fin 128)) :
    (∑ k ∈ s, (f k : EReal)) = ((∑ k ∈ s, f k : ℝ) : EReal) := by
  refine Finset.induction_on s ?_ ?_
  · simp
  · intro a s ha ih
    rw [Finset.sum_insert ha, Finset.sum_insert ha, ih, EReal.coe_add]

end Softmax

/-- A softmax entry of real logits is real. -/
theorem prob_real (x : Fin 128 → EReal) (hx : ∀ j, ∃ r : ℝ, x j = (r : EReal)) (j : Fin 128) :
    ∃ q : ℝ, prob x j = (q : EReal) := by
  choose xr hxr using hx
  obtain rfl : x = fun j => (xr j : EReal) := funext hxr
  obtain ⟨m, hm⟩ := Softmax.rowMax_real xr
  have hexp : ∀ k, rowExp (fun j => (xr j : EReal)) k = ((Real.exp (xr k - m) : ℝ) : EReal) := by
    intro k
    unfold rowExp
    rw [hm, ← EReal.coe_sub, Ideal.exp_coe]
  have hpos : 0 < ∑ k : Fin 128, Real.exp (xr k - m) :=
    Finset.sum_pos (fun k _ => Real.exp_pos _) Finset.univ_nonempty
  have hne : ((∑ k : Fin 128, Real.exp (xr k - m) : ℝ) : EReal) ≠ 0 := by
    rw [Ne, EReal.coe_eq_zero]
    exact hpos.ne'
  refine ⟨Real.exp (xr j - m) * (∑ k : Fin 128, Real.exp (xr k - m))⁻¹, ?_⟩
  unfold prob
  simp only [hexp]
  rw [Softmax.coe_sum, Ideal.div, if_neg hne, EReal.coe_mul, EReal.coe_inv]

/-- The softmax rows as real numbers. -/
def pReal (X : SX.Idx → EReal) (b : Fin 16) (r : Fin 8192) (j : Fin 128) : ℝ := (prob (rowsOf X b r) j).toReal

theorem prob_eq_coe (X : SX.Idx → EReal) (hX : ∀ i, ∃ r : ℝ, X i = (r : EReal)) (b : Fin 16) (r : Fin 8192) (j : Fin 128) :
    prob (rowsOf X b r) j = ((pReal X b r j : ℝ) : EReal) := by
  obtain ⟨q, hq⟩ := prob_real (rowsOf X b r) (fun j => hX _) j
  unfold pReal
  rw [hq, EReal.toReal_coe]

/-- The column indicator as a real number: 1 when the token's folded segment word is the column's number. -/
def oReal (A : SA.Idx → BitVec 32) (M : SA.Idx → BitVec 1) (b : Fin 16) (r : Fin 8192) (c : Fin 128) : ℝ :=
  if segOf A M b r = BitVec.ofNat 32 c.val then 1 else 0

theorem oReal_01 (A : SA.Idx → BitVec 32) (M : SA.Idx → BitVec 1) (b : Fin 16) (r : Fin 8192) (c : Fin 128) :
    oReal A M b r c = 0 ∨ oReal A M b r c = 1 := by
  unfold oReal; split <;> simp

/-- The one-hot entry is the indicator. -/
theorem hit_eq_coe (A : SA.Idx → BitVec 32) (M : SA.Idx → BitVec 1) (b : Fin 16) (r : Fin 8192) (c : Fin 128) :
    hit (segOf A M b r) c = ((oReal A M b r c : ℝ) : EReal) := by
  unfold hit oReal; split <;> simp

end Cert.SegStats

end
-- ==== Proof.Streaming.lean ====
/-
  The streaming program's statistics over the reals: block by block the accumulator collects, per column c,
  the sums of o, o · p_j and o · ∑_j p_j² over the tokens of its half; the low parts v − v vanish for real v;
  and the two halves together range over all sixteen batches.
-/
import proofs.«419050_j75161927680447_3_alg».proof.Proof.Spec
import proofs.«419050_j75161927680447_3_alg».proof.Proof.RealSpec
import proofs.«419050_j75161927680447_3_alg».proof.Proof.Softmax

noncomputable section

open scoped BigOperators

namespace Cert.SegStats

open Idealize.ShloMosaic Idealize.ShloMosaic.ValueIdx

namespace Streaming

/-! ## The literals: each float word is the real number it spells -/

theorem zeroF_eq : zeroF = ((0 : ℝ) : EReal) := by
  simp [Ideal.ofBits, Ideal.ieee]
theorem zeroH_eq : zeroH = ((0 : ℝ) : EReal) := by
  simp [Ideal.ofBits, Ideal.ieee]
theorem oneH_eq : oneH = ((1 : ℝ) : EReal) := by
  simp [Ideal.ofBits, Ideal.ieee, -EReal.coe_mul]; norm_num
theorem oneF_eq : oneF = ((1 : ℝ) : EReal) := by
  simp [Ideal.ofBits, Ideal.ieee, -EReal.coe_mul]; norm_num
theorem twoF_eq : twoF = ((2 : ℝ) : EReal) := by
  simp [Ideal.ofBits, Ideal.ieee, -EReal.coe_mul]; norm_num
theorem c128F_eq : c128F = ((128 : ℝ) : EReal) := by
  simp [Ideal.ofBits, Ideal.ieee, -EReal.coe_mul]; norm_num

/-- The inclusion of the reals in the extended reals carries finite sums to finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inclusion is monotone, so it carries maxima to maxima. -/
theorem coe_max (a b : ℝ) : max (a : EReal) (b : EReal) = ((max a b : ℝ) : EReal) :=
  (EReal.coe_strictMono.monotone.map_max).symm

/-! ## One token's entries are real -/

/-- One token's entry of the right-hand side as a real number. -/
def colR (p : Fin 128 → ℝ) (k : Fin 256) : ℝ :=
  if h : k.val < 128 then p ⟨k.val, h⟩ else if k.val = 128 then ∑ j : Fin 128, p j * p j else if k.val = 129 then 1 else 0

variable (X : SX.Idx → EReal) (A : SA.Idx → BitVec 32) (M : SA.Idx → BitVec 1)
  (hX : ∀ i, ∃ r : ℝ, X i = (r : EReal))

include hX in
theorem sumSq_eq (b : Fin 16) (r : Fin 8192) :
    sumSq (rowsOf X b r) = ((∑ j : Fin 128, pReal X b r j * pReal X b r j : ℝ) : EReal) := by
  unfold sumSq
  rw [coe_sum]
  refine Finset.sum_congr rfl fun j _ => ?_
  rw [prob_eq_coe X hX, EReal.coe_mul]

include hX in
theorem hiCol_eq (b : Fin 16) (r : Fin 8192) (k : Fin 256) :
    hiCol (rowsOf X b r) k = ((colR (pReal X b r) k : ℝ) : EReal) := by
  unfold hiCol colR
  split_ifs with h1 h2 h3
  · exact prob_eq_coe X hX b r _
  · exact sumSq_eq X hX b r
  · exact oneH_eq
  · exact zeroH_eq

include hX in
/-- The low part is v − v for a real v, or a literal zero. -/
theorem loCol_eq (b : Fin 16) (r : Fin 8192) (k : Fin 256) : loCol (rowsOf X b r) k = 0 := by
  unfold loCol
  split_ifs with h1 h2
  · rw [prob_eq_coe X hX, ← EReal.coe_sub, sub_self, EReal.coe_zero]
  · rw [sumSq_eq X hX, ← EReal.coe_sub, sub_self, EReal.coe_zero]
  · rw [zeroH_eq, EReal.coe_zero]

/-! ## One block's term -/

/-- What block b adds to entry (c, k), as a real number. -/
def blockR (p o : Fin 16 → Fin 8192 → Fin 128 → ℝ) (b : Fin 16) (c : Fin 128) (k : Fin 256) : ℝ :=
  ∑ r : Fin 8192, o b r c * colR (p b r) k

include hX in
theorem blockTerm_eq (b : Fin 16) (c : Fin 128) (k : Fin 256) :
    blockTerm (rowsOf X b) (segOf A M b) c k = ((blockR (pReal X) (oReal A M) b c k : ℝ) : EReal) := by
  unfold blockTerm blockR
  have h2 : (∑ r : Fin 8192, hit (segOf A M b r) c * loCol (rowsOf X b r) k) = 0 :=
    Finset.sum_eq_zero fun r _ => by rw [loCol_eq X hX, mul_zero]
  rw [h2, add_zero, coe_sum]
  refine Finset.sum_congr rfl fun r _ => ?_
  rw [hit_eq_coe, hiCol_eq X hX, EReal.coe_mul]

/-! ## The accumulator unrolled -/

/-- At the first block of a half the accumulator restarts from zero. -/
theorem accAt_start (X' : Fin 16 → Fin 8192 → Fin 128 → EReal) (S' : Fin 16 → Fin 8192 → BitVec 32)
    (s : ℕ) (hs : s % 8 = 0) (h : s < 16) (c : Fin 128) (k : Fin 256) :
    accAt X' S' s h c k = zeroF + blockTerm (X' ⟨s, h⟩) (S' ⟨s, h⟩) c k := by
  cases s with
  | zero => rfl
  | succ m =>
    show (if (m + 1) % 8 = 0 then zeroF else accAt X' S' m (Nat.lt_of_succ_lt h) c k) + _ = _
    rw [if_pos hs]

/-- At every other block it adds the block's term to what it held. -/
theorem accAt_step (X' : Fin 16 → Fin 8192 → Fin 128 → EReal) (S' : Fin 16 → Fin 8192 → BitVec 32)
    (n : ℕ) (hn : (n + 1) % 8 ≠ 0) (h : n + 1 < 16) (c : Fin 128) (k : Fin 256) :
    accAt X' S' (n + 1) h c k
      = accAt X' S' n (Nat.lt_of_succ_lt h) c k + blockTerm (X' ⟨n + 1, h⟩) (S' ⟨n + 1, h⟩) c k := by
  show (if (n + 1) % 8 = 0 then zeroF else accAt X' S' n (Nat.lt_of_succ_lt h) c k) + _ = _
  rw [if_neg hn]

/-- Block n's real term, zero beyond the sixteen batches. -/
def blockN (p o : Fin 16 → Fin 8192 → Fin 128 → ℝ) (c : Fin 128) (k : Fin 256) (n : ℕ) : ℝ :=
  if h : n < 16 then blockR p o ⟨n, h⟩ c k else 0

include hX in
/-- Within a half starting at block s, the accumulator after i further blocks is the sum of the i + 1 terms. -/
theorem accAt_eq (s : ℕ) (hs : s % 8 = 0) (c : Fin 128) (k : Fin 256) (i : ℕ) (hi : i < 8) (h : s + i < 16) :
    accAt (rowsOf X) (segOf A M) (s + i) h c k
      = ((∑ t ∈ Finset.range (i + 1), blockN (pReal X) (oReal A M) c k (s + t) : ℝ) : EReal) := by
  induction i with
  | zero =>
    show accAt (rowsOf X) (segOf A M) s h c k
      = ((∑ t ∈ Finset.range 1, blockN (pReal X) (oReal A M) c k (s + t) : ℝ) : EReal)
    rw [accAt_start _ _ _ hs, blockTerm_eq X A M hX, zeroF_eq, ← EReal.coe_add, zero_add, Finset.sum_range_one]
    unfold blockN
    rw [dif_pos h]
    rfl
  | succ i ih =>
    have h' : s + i < 16 := by omega
    show accAt (rowsOf X) (segOf A M) (s + i + 1) h c k = _
    rw [accAt_step _ _ (s + i) (by omega) h, ih (by omega) h', blockTerm_eq X A M hX, ← EReal.coe_add,
      Finset.sum_range_succ _ (i + 1)]
    congr 2
    unfold blockN
    rw [dif_pos h]
    rfl

include hX in
/-- Half p holds the sum of its eight blocks' terms, blocks 8p to 8p + 7. -/
theorem regionOut_eq (p : Fin 2) (c : Fin 128) (k : Fin 256) :
    regionOut X A M (ix3 p c k)
      = ((∑ t ∈ Finset.range 8, blockN (pReal X) (oReal A M) c k (8 * p.val + t) : ℝ) : EReal) :=
  accAt_eq X A M hX (8 * p.val) (by omega) c k 7 (by norm_num) _

include hX in
/-- The two halves together range over all sixteen batches. -/
theorem stats_eq (c : Fin 128) (k : Fin 256) :
    stats (regionOut X A M) c k = ((∑ b : Fin 16, blockR (pReal X) (oReal A M) b c k : ℝ) : EReal) := by
  unfold stats
  rw [Fin.sum_univ_two, regionOut_eq X A M hX, regionOut_eq X A M hX, zeroF_eq, ← EReal.coe_add, ← EReal.coe_add]
  congr 1
  have e : ∑ b : Fin 16, blockR (pReal X) (oReal A M) b c k
      = ∑ n ∈ Finset.range 16, blockN (pReal X) (oReal A M) c k n := by
    rw [← Fin.sum_univ_eq_sum_range]
    refine Finset.sum_congr rfl fun b _ => ?_
    unfold blockN
    rw [dif_pos b.isLt]
  rw [e, (Finset.sum_range_add (blockN (pReal X) (oReal A M) c k) 8 8 :
    ∑ n ∈ Finset.range 16, blockN (pReal X) (oReal A M) c k n = _)]
  simp

/-! ## The three kinds of column -/

include hX in
theorem kN_eq (c : Fin 128) : kN (regionOut X A M) c = ((nR (oReal A M) c : ℝ) : EReal) := by
  unfold kN
  rw [stats_eq X A M hX]
  congr 1
  unfold nR blockR
  refine Finset.sum_congr rfl fun b _ => Finset.sum_congr rfl fun r _ => ?_
  simp [colR]

include hX in
theorem kS_eq (c j : Fin 128) : kS (regionOut X A M) c j = ((sR (pReal X) (oReal A M) c j : ℝ) : EReal) := by
  unfold kS
  rw [stats_eq X A M hX]
  congr 1
  unfold sR blockR
  refine Finset.sum_congr rfl fun b _ => Finset.sum_congr rfl fun r _ => ?_
  simp [colR, j.isLt]

include hX in
theorem kQ_eq (c : Fin 128) :
    stats (regionOut X A M) c ⟨128, by decide⟩ = ((qR (pReal X) (oReal A M) c : ℝ) : EReal) := by
  rw [stats_eq X A M hX]
  refine congrArg Real.toEReal ?_
  unfold qR blockR
  refine Finset.sum_congr rfl fun b _ => Finset.sum_congr rfl fun r _ => ?_
  simp [colR]

end Streaming

open Streaming in
theorem stream_n (X : SX.Idx → EReal) (A : SA.Idx → BitVec 32) (M : SA.Idx → BitVec 1)
    (hX : ∀ i, ∃ r : ℝ, X i = (r : EReal)) (c : Fin 128) :
    kN (regionOut X A M) c = ((nR (oReal A M) c : ℝ) : EReal) :=
  kN_eq X A M hX c

open Streaming in
theorem stream_var (X : SX.Idx → EReal) (A : SA.Idx → BitVec 32) (M : SA.Idx → BitVec 1)
    (hX : ∀ i, ∃ r : ℝ, X i = (r : EReal)) (c : Fin 128) :
    kVar (regionOut X A M) c = ((streamVar (pReal X) (oReal A M) c : ℝ) : EReal) := by
  have hn := kN_eq X A M hX c
  have hS := kS_eq X A M hX c
  have hq := kQ_eq X A M hX c
  have hpos : (0 : ℝ) < max (nR (oReal A M) c) 1 := lt_of_lt_of_le one_pos (le_max_right _ _)
  have hsafe : kSafe (regionOut X A M) c = ((max (nR (oReal A M) c) 1 : ℝ) : EReal) := by
    unfold kSafe
    rw [hn, oneF_eq, coe_max]
  have hmean : ∀ j, kMean (regionOut X A M) c j = ((muR (pReal X) (oReal A M) c j : ℝ) : EReal) := by
    intro j
    unfold kMean muR
    rw [hS, hsafe, Ideal.div_coe hpos.ne', ← EReal.coe_mul, mul_one_div]
  have hssd : kSsd (regionOut X A M) c
      = ((max (qR (pReal X) (oReal A M) c
            - 2 * ∑ j : Fin 128, muR (pReal X) (oReal A M) c j * sR (pReal X) (oReal A M) c j
            + nR (oReal A M) c * ∑ j : Fin 128, muR (pReal X) (oReal A M) c j * muR (pReal X) (oReal A M) c j) 0 : ℝ) : EReal) := by
    unfold kSsd
    simp only [hmean, hS, hn, hq, twoF_eq, zeroF_eq, ← EReal.coe_mul, ← coe_sum, ← EReal.coe_add, ← EReal.coe_sub,
      coe_max, zero_add]
  have hden : (max (nR (oReal A M) c) 1 * 128 : ℝ) ≠ 0 := mul_ne_zero hpos.ne' (by norm_num)
  unfold kVar streamVar
  rw [hssd, hsafe, c128F_eq, ← EReal.coe_mul, Ideal.div_coe hden, ← EReal.coe_mul, mul_one_div]

end Cert.SegStats

end
-- ==== Proof.TwoPass.lean ====
/-
  The two-pass program's statistics over the reals: a token lands on column c exactly when its segment word,
  read signed, is c; there the row of the mean table it is compared with is row c; and a flat token number
  t = 8192 b + r ranges over the pairs (b, r).
-/
import proofs.«419050_j75161927680447_3_alg».proof.Proof.Spec
import proofs.«419050_j75161927680447_3_alg».proof.Proof.RealSpec
import proofs.«419050_j75161927680447_3_alg».proof.Proof.Softmax

noncomputable section

open scoped BigOperators

namespace Cert.SegStats

open Idealize.ShloMosaic Idealize.ShloMosaic.ValueIdx

namespace TwoPass

/-- The pattern of +0.0 denotes 0. -/
theorem zeroF_eq : zeroF = 0 := Ideal.ofBits_zero_f32

/-- The pattern of 1.0 denotes the real 1. -/
theorem oneF_eq : oneF = ((1 : ℝ) : EReal) := by
  simp [Ideal.ofBits, Ideal.ieee, -EReal.coe_mul]; norm_num

/-- The pattern of 128.0 denotes the real 128. -/
theorem c128F_eq : c128F = ((128 : ℝ) : EReal) := by
  simp [Ideal.ofBits, Ideal.ieee, -EReal.coe_mul]; norm_num

/-- The inclusion of the reals in the extended reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion is monotone, so it carries a maximum to the maximum. -/
theorem coe_max (x y : ℝ) : ((max x y : ℝ) : EReal) = max (x : EReal) (y : EReal) :=
  EReal.coe_strictMono.monotone.map_max

/-- The pairs (b, r) with b < 16, r < 8192 and the flat numbers t = 8192 b + r < 131072 correspond one to one,
    with inverse t ↦ (t / 8192, t % 8192). -/
def tokEquiv : Fin 16 × Fin 8192 ≃ Fin 131072 where
  toFun p := ⟨8192 * p.1.val + p.2.val, by have := p.1.isLt; have := p.2.isLt; omega⟩
  invFun t := (tokB t, tokR t)
  left_inv p := by
    rcases p with ⟨b, r⟩
    have hb := b.isLt; have hr := r.isLt
    ext <;> simp [tokB, tokR] <;> omega
  right_inv t := by
    ext; simp [tokB, tokR]; omega

/-- A sum over flat token numbers of a function of (t / 8192, t % 8192) is the double sum over (b, r). -/
theorem sum_tok {M : Type*} [AddCommMonoid M] (f : Fin 16 → Fin 8192 → M) :
    ∑ t : Fin 131072, f (tokB t) (tokR t) = ∑ b : Fin 16, ∑ r : Fin 8192, f b r := by
  rw [← Equiv.sum_comp tokEquiv, Fintype.sum_prod_type]
  refine Finset.sum_congr rfl (fun b _ => Finset.sum_congr rfl (fun r _ => ?_))
  have h := tokEquiv.left_inv (b, r)
  have h1 : tokB (tokEquiv (b, r)) = b := congrArg Prod.fst h
  have h2 : tokR (tokEquiv (b, r)) = r := congrArg Prod.snd h
  rw [h1, h2]

/-- For c < 128 < 2³¹ a 32-bit word reads signed as c exactly when it is the word of c. -/
theorem land (a : BitVec 32) (c : Fin 128) : a.toInt = (c.val : Int) ↔ a = BitVec.ofNat 32 c.val := by
  have hc := c.isLt
  have ha := a.isLt
  rw [BitVec.toInt_eq_toNat_cond, ← BitVec.toNat_inj, BitVec.toNat_ofNat]
  constructor <;> intro h <;> split at * <;> omega

/-- A token whose segment reads signed as c ≥ 0 is not wrapped, and min c 127 = c: its row of the mean table is c. -/
theorem gRow_eq (A : SA.Idx → BitVec 32) (t : Fin 131072) (c : Fin 128)
    (h : (aOf A t).toInt = (c.val : Int)) : gRow A t = c := by
  have hc := c.isLt
  have hs : (aOf A t).slt 0#32 = false := by
    simp [BitVec.slt, h]
  apply Fin.ext
  simp only [gRow, hs, h, Bool.false_eq_true, if_false, Int.toNat_natCast]
  omega

/-- The weight of a token landing on column c is the column's indicator. -/
theorem landW (a : BitVec 32) (m : BitVec 1) (c : Fin 128) :
    (if a.toInt = (c.val : Int) then (((m.toNat : ℝ)) : EReal) else 0)
      = (((if (if m = 1#1 then a else 4294967295#32) = BitVec.ofNat 32 c.val then (1 : ℝ) else 0) : ℝ) : EReal) := by
  have hc := c.isLt
  rcases BitVec.eq_zero_or_eq_one m with hm | hm
  · subst hm
    have hne : ¬ ((4294967295#32 : BitVec 32) = BitVec.ofNat 32 c.val) := by
      rw [← BitVec.toNat_inj, BitVec.toNat_ofNat]; simp; omega
    simp [hne]
  · subst hm
    by_cases h : a.toInt = (c.val : Int)
    · have h' := (land a c).1 h
      rw [if_pos h, if_pos rfl, if_pos h']; simp
    · have h' : ¬ a = BitVec.ofNat 32 c.val := fun e => h ((land a c).2 e)
      rw [if_neg h, if_pos rfl, if_neg h']; simp

/-- A real value weighted by a token landing on column c is the indicator times the value. -/
theorem landMul (a : BitVec 32) (m : BitVec 1) (c : Fin 128) (y : ℝ) :
    (if a.toInt = (c.val : Int) then (y : EReal) * (((m.toNat : ℝ)) : EReal) else 0)
      = (((if (if m = 1#1 then a else 4294967295#32) = BitVec.ofNat 32 c.val then (1 : ℝ) else 0) * y : ℝ) : EReal) := by
  rw [EReal.coe_mul, ← landW a m c]
  by_cases h : a.toInt = (c.val : Int)
  · simp only [h, if_true]; rw [mul_comm]
  · simp only [h, if_false]; rw [zero_mul]

end TwoPass

theorem twopass_n (A : SA.Idx → BitVec 32) (M : SA.Idx → BitVec 1) (c : Fin 128) :
    rN A M c = ((nR (oReal A M) c : ℝ) : EReal) := by
  unfold rN nR
  rw [TwoPass.zeroF_eq, zero_add, TwoPass.coe_sum]
  have hterm : ∀ t : Fin 131072, (if (aOf A t).toInt = (c.val : Int) then wOf M t else 0)
      = ((oReal A M (tokB t) (tokR t) c : ℝ) : EReal) := by
    intro t
    exact TwoPass.landW (A (ix2 (tokB t) (tokR t))) (M (ix2 (tokB t) (tokR t))) c
  rw [Finset.sum_congr rfl (fun t _ => hterm t)]
  rw [TwoPass.sum_tok (fun b r => ((oReal A M b r c : ℝ) : EReal))]
  refine Finset.sum_congr rfl (fun b _ => ?_)
  rw [TwoPass.coe_sum]

namespace TwoPass

/-- max(x, 1) ≥ 1 is not zero. -/
theorem max_one_ne_zero (x : ℝ) : max x 1 ≠ 0 := by
  have h : (1 : ℝ) ≤ max x 1 := le_max_right _ _
  intro e; rw [e] at h; linarith

/-- max(n_c, 1) over the reals. -/
theorem rSafe_eq (A : SA.Idx → BitVec 32) (M : SA.Idx → BitVec 1) (c : Fin 128) :
    rSafe A M c = ((max (nR (oReal A M) c) 1 : ℝ) : EReal) := by
  unfold rSafe
  rw [twopass_n, oneF_eq, coe_max]

/-- s_{c,j} over the reals: each landing token contributes p_j · w = o · p_j. -/
theorem rS_eq (X : SX.Idx → EReal) (A : SA.Idx → BitVec 32) (M : SA.Idx → BitVec 1)
    (hX : ∀ i, ∃ r : ℝ, X i = (r : EReal)) (c j : Fin 128) :
    rS X A M c j = ((sR (pReal X) (oReal A M) c j : ℝ) : EReal) := by
  unfold rS sR
  rw [zeroF_eq, zero_add, coe_sum]
  have hterm : ∀ t : Fin 131072, (if (aOf A t).toInt = (c.val : Int) then pOf X t j * wOf M t else 0)
      = ((oReal A M (tokB t) (tokR t) c * pReal X (tokB t) (tokR t) j : ℝ) : EReal) := by
    intro t
    have hp : pOf X t j = ((pReal X (tokB t) (tokR t) j : ℝ) : EReal) := prob_eq_coe X hX _ _ j
    rw [hp]
    exact landMul (A (ix2 (tokB t) (tokR t))) (M (ix2 (tokB t) (tokR t))) c _
  rw [Finset.sum_congr rfl (fun t _ => hterm t)]
  rw [sum_tok (fun b r => ((oReal A M b r c * pReal X b r j : ℝ) : EReal))]
  refine Finset.sum_congr rfl (fun b _ => ?_)
  rw [coe_sum]

/-- mean_{c,j} = s_{c,j} / max(n_c, 1) over the reals: the divisor is a nonzero real. -/
theorem rMean_eq (X : SX.Idx → EReal) (A : SA.Idx → BitVec 32) (M : SA.Idx → BitVec 1)
    (hX : ∀ i, ∃ r : ℝ, X i = (r : EReal)) (c j : Fin 128) :
    rMean X A M c j = ((muR (pReal X) (oReal A M) c j : ℝ) : EReal) := by
  unfold rMean muR
  rw [rS_eq X A M hX, rSafe_eq, Ideal.div_coe (max_one_ne_zero _), ← EReal.coe_mul, mul_one_div]

/-- The squared deviations summed over the tokens landing on c: there the mean row read is row c, and
    (p − mean)² · w = o · (p − mean)². -/
theorem rSsd_eq (X : SX.Idx → EReal) (A : SA.Idx → BitVec 32) (M : SA.Idx → BitVec 1)
    (hX : ∀ i, ∃ r : ℝ, X i = (r : EReal)) (c j : Fin 128) :
    rSsd X A M c j = ((∑ b : Fin 16, ∑ r : Fin 8192, oReal A M b r c *
      ((pReal X b r j - muR (pReal X) (oReal A M) c j) * (pReal X b r j - muR (pReal X) (oReal A M) c j)) : ℝ) : EReal) := by
  unfold rSsd
  rw [zeroF_eq, zero_add, coe_sum]
  have hterm : ∀ t : Fin 131072, (if (aOf A t).toInt = (c.val : Int) then rSq X A M t j else 0)
      = ((oReal A M (tokB t) (tokR t) c *
          ((pReal X (tokB t) (tokR t) j - muR (pReal X) (oReal A M) c j)
            * (pReal X (tokB t) (tokR t) j - muR (pReal X) (oReal A M) c j)) : ℝ) : EReal) := by
    intro t
    have hp : pOf X t j = ((pReal X (tokB t) (tokR t) j : ℝ) : EReal) := prob_eq_coe X hX _ _ j
    have h1 : (if (aOf A t).toInt = (c.val : Int) then rSq X A M t j else 0)
        = (if (aOf A t).toInt = (c.val : Int) then
            ((((pReal X (tokB t) (tokR t) j - muR (pReal X) (oReal A M) c j)
              * (pReal X (tokB t) (tokR t) j - muR (pReal X) (oReal A M) c j) : ℝ)) : EReal) * wOf M t else 0) := by
      by_cases h : (aOf A t).toInt = (c.val : Int)
      · rw [if_pos h, if_pos h]
        unfold rSq
        rw [gRow_eq A t c h, rMean_eq X A M hX, hp, ← EReal.coe_sub, ← EReal.coe_mul]
      · rw [if_neg h, if_neg h]
    rw [h1]
    exact landMul (A (ix2 (tokB t) (tokR t))) (M (ix2 (tokB t) (tokR t))) c _
  rw [Finset.sum_congr rfl (fun t _ => hterm t)]
  rw [sum_tok (fun b r => ((oReal A M b r c *
      ((pReal X b r j - muR (pReal X) (oReal A M) c j) * (pReal X b r j - muR (pReal X) (oReal A M) c j)) : ℝ) : EReal))]
  refine Finset.sum_congr rfl (fun b _ => ?_)
  rw [coe_sum]

end TwoPass

theorem twopass_var (X : SX.Idx → EReal) (A : SA.Idx → BitVec 32) (M : SA.Idx → BitVec 1)
    (hX : ∀ i, ∃ r : ℝ, X i = (r : EReal)) (c : Fin 128) :
    rVar X A M c = ((twoPassVar (pReal X) (oReal A M) c : ℝ) : EReal) := by
  unfold rVar twoPassVar
  have hne : max (nR (oReal A M) c) 1 * (128 : ℝ) ≠ 0 :=
    mul_ne_zero (TwoPass.max_one_ne_zero _) (by norm_num)
  rw [TwoPass.zeroF_eq, zero_add, TwoPass.rSafe_eq, TwoPass.c128F_eq, ← EReal.coe_mul]
  rw [Finset.sum_congr rfl (fun j _ => TwoPass.rSsd_eq X A M hX c j), ← TwoPass.coe_sum]
  rw [Ideal.div_coe hne, ← EReal.coe_mul, mul_one_div]

end Cert.SegStats

end
-- ==== Proof.Variance.lean ====
/-
  The one-pass expansion of a weighted sum of squared deviations. For indicators o ∈ {0, 1},
    ∑_j ∑_t o_t (p_tj − μ_j)² = ∑_t o_t ∑_j p_tj² − 2 ∑_j μ_j ∑_t o_t p_tj + (∑_t o_t) ∑_j μ_j²,
  whatever the numbers μ_j are, and the left side is a sum of nonnegative terms, so clamping the right side
  at zero changes nothing.
-/
import proofs.«419050_j75161927680447_3_alg».proof.Proof.RealSpec

noncomputable section

open scoped BigOperators

namespace Cert.SegStats

namespace Variance

/-- One column j: expanding (p − m)² = p² − 2 m p + m² under the weighted sum over tokens. -/
theorem expand_col (p : Fin 16 → Fin 8192 → Fin 128 → ℝ) (o : Fin 16 → Fin 8192 → Fin 128 → ℝ)
    (c j : Fin 128) (m : ℝ) :
    (∑ b : Fin 16, ∑ r : Fin 8192, o b r c * ((p b r j - m) * (p b r j - m)))
      = (∑ b : Fin 16, ∑ r : Fin 8192, o b r c * (p b r j * p b r j))
          - 2 * (m * sR p o c j) + nR o c * (m * m) := by
  unfold sR nR
  simp only [Finset.mul_sum, Finset.sum_mul, ← Finset.sum_sub_distrib, ← Finset.sum_add_distrib]
  refine Finset.sum_congr rfl fun b _ => Finset.sum_congr rfl fun r _ => ?_
  ring

/-- The sum of squares q is the sum over columns of the weighted sums of p_j². -/
theorem qR_eq (p : Fin 16 → Fin 8192 → Fin 128 → ℝ) (o : Fin 16 → Fin 8192 → Fin 128 → ℝ) (c : Fin 128) :
    qR p o c = ∑ j : Fin 128, ∑ b : Fin 16, ∑ r : Fin 8192, o b r c * (p b r j * p b r j) := by
  unfold qR
  simp only [Finset.mul_sum]
  rw [Finset.sum_comm (s := (Finset.univ : Finset (Fin 128)))]
  exact Finset.sum_congr rfl fun b _ => Finset.sum_comm

/-- The expansion for arbitrary numbers μ_j. -/
theorem expand (p : Fin 16 → Fin 8192 → Fin 128 → ℝ) (o : Fin 16 → Fin 8192 → Fin 128 → ℝ)
    (c : Fin 128) (μ : Fin 128 → ℝ) :
    (∑ j : Fin 128, ∑ b : Fin 16, ∑ r : Fin 8192, o b r c * ((p b r j - μ j) * (p b r j - μ j)))
      = qR p o c - 2 * ∑ j : Fin 128, μ j * sR p o c j + nR o c * ∑ j : Fin 128, μ j * μ j := by
  simp only [expand_col]
  rw [Finset.sum_add_distrib, Finset.sum_sub_distrib, ← Finset.mul_sum, ← Finset.mul_sum, ← qR_eq]

end Variance

theorem variance_identity (p : Fin 16 → Fin 8192 → Fin 128 → ℝ) (o : Fin 16 → Fin 8192 → Fin 128 → ℝ)
    (ho : ∀ b r c, o b r c = 0 ∨ o b r c = 1) (c : Fin 128) : streamVar p o c = twoPassVar p o c := by
  unfold streamVar twoPassVar
  rw [← Variance.expand p o c (muR p o c), max_eq_left]
  refine Finset.sum_nonneg fun j _ => Finset.sum_nonneg fun b _ => Finset.sum_nonneg fun r _ => ?_
  refine mul_nonneg ?_ (mul_self_nonneg _)
  rcases ho b r c with h | h <;> rw [h]
  exact zero_le_one

end Cert.SegStats

end
-- ==== Proof.Agree.lean ====
/-
  Both programs compute the same counts and the same variances: each side is the real statistic of the same
  rows and indicators, and the two real variances are one number.
-/
import proofs.«419050_j75161927680447_3_alg».proof.Proof.Streaming
import proofs.«419050_j75161927680447_3_alg».proof.Proof.TwoPass
import proofs.«419050_j75161927680447_3_alg».proof.Proof.Variance

noncomputable section

namespace Cert.SegStats

open Idealize.ShloMosaic Idealize.ShloMosaic.ValueIdx

theorem counts_agree (X : SX.Idx → EReal) (A : SA.Idx → BitVec 32) (M : SA.Idx → BitVec 1)
    (hX : ∀ i, ∃ r : ℝ, X i = (r : EReal)) (c : Fin 128) : kN (regionOut X A M) c = rN A M c := by
  rw [stream_n X A M hX c, twopass_n A M c]

theorem vars_agree (X : SX.Idx → EReal) (A : SA.Idx → BitVec 32) (M : SA.Idx → BitVec 1)
    (hX : ∀ i, ∃ r : ℝ, X i = (r : EReal)) (c : Fin 128) : kVar (regionOut X A M) c = rVar X A M c := by
  rw [stream_var X A M hX c, twopass_var X A M hX c, variance_identity _ _ (oReal_01 A M) c]

end Cert.SegStats

end
-- ==== Proof.Finite.lean ====
/-
  The precondition says every logit's absolute value is below +∞; an extended real whose absolute value is
  below +∞ is a real number.
-/
import proofs.«419050_j75161927680447_3_alg».proof.Defs
import proofs.«419050_j75161927680447_3_alg».proof.Proof.Gen.Pre_finite_inputs
import proofs.«419050_j75161927680447_3_alg».proof.Proof.Spec
import Idealize.ShloMosaic.Lib.ReduceAll
import Idealize.ShloMosaic.PureOps.Ideal.Laws

noncomputable section

namespace Cert.SegStats

open Idealize.ShloMosaic Idealize.ShloMosaic.ValueIdx

/-- An extended real with |x| < +∞ is real. -/
theorem real_of_abs_lt_top (x : EReal) (h : max x (-x) < ⊤) : ∃ r : ℝ, x = (r : EReal) := by
  induction x using EReal.rec with
  | bot => simp at h
  | coe r => exact ⟨r, rfl⟩
  | top => simp at h

theorem finite_of_pre [hP : Cert.Pre_finite_inputs.Facts] (x0 : FVec Ideal Cert.Pre_finite_inputs.S16x8192x128 .f32)
    (x1 : IVec Cert.Pre_finite_inputs.S16x8192 32) (x2 : IVec Cert.Pre_finite_inputs.S16x8192 1)
    (h : Cert.Pre_finite_inputs.fn (F := Ideal) x0 x1 x2 = fun _ => 1#1) (i : SX.Idx) : ∃ r : ℝ, x0 i = (r : EReal) := by
  have h0 := congrFun h ix0
  dsimp only [Cert.Pre_finite_inputs.fn] at h0
  haveI : Subsingleton Cert.Pre_finite_inputs.S_.Idx := ⟨fun a b => funext fun d => d.elim0⟩
  have hi := Host.reduce_andi_all _ _ _ _ _ h0 i
  apply real_of_abs_lt_top
  have hc : Ideal.cmp .olt (max (x0 i) (-(x0 i))) (Ideal.ofBits .f32 0x7F800000#32) = 1#1 := hi
  have htop : Ideal.ofBits .f32 0x7F800000#32 = ⊤ := by simp [Ideal.ofBits, Ideal.ieee]
  rw [htop] at hc
  by_contra hlt
  simp [Ideal.cmp, hlt] at hc

end Cert.SegStats

end
-- ==== Proof.lean ====
/-
  The certificate of the column-consistency kernel against its two-pass reference.

  Both programs compute, per column c of 128, the number n_c of valid tokens assigned to c and the variance of
  those tokens' softmax rows about their mean, and finish with the mean of the variances over the columns with
  n_c > 1. The kernel streams the tokens once, sixteen blocks of 8192, accumulating n_c, the sums s_{c,j} and the
  sums of squares q_c as products of a one-hot matrix with a right-hand side split into a high and a low part
  (over the extended reals the low part is v − v = 0 for the real values v met here), and recovers the sum of
  squared deviations as q − 2 ∑_j mean_j s_j + n ∑_j mean_j², clamped at zero. The reference scatters the
  weights and the weighted rows by segment, gathers each token's mean row, and scatters the weighted squared
  deviations. With finite logits every softmax entry is a real number, the expansion of the square holds, the
  squared deviations sum to a nonnegative number, and the two results are one extended real.

  The three frames are the generated frame runs (the reference's: its run with the result dropped); the two
  `preserves` conjuncts are the rule's statement at the two shapes.
-/
import proofs.«419050_j75161927680447_3_alg».proof.Defs
import proofs.«419050_j75161927680447_3_alg».proof.Proof.Gen.Kernel
import proofs.«419050_j75161927680447_3_alg».proof.Proof.Gen.Kernel.Frame
import proofs.«419050_j75161927680447_3_alg».proof.Proof.Gen.KernelIdeal
import proofs.«419050_j75161927680447_3_alg».proof.Proof.Gen.KernelIdeal.Frame
import proofs.«419050_j75161927680447_3_alg».proof.Proof.Gen.ReferenceIdeal
import proofs.«419050_j75161927680447_3_alg».proof.Proof.Gen.Pre_finite_inputs
import proofs.«419050_j75161927680447_3_alg».proof.Proof.RefRun
import proofs.«419050_j75161927680447_3_alg».proof.Proof.KRun
import proofs.«419050_j75161927680447_3_alg».proof.Proof.RefValue
import proofs.«419050_j75161927680447_3_alg».proof.Proof.Agree
import proofs.«419050_j75161927680447_3_alg».proof.Proof.Finite
import Idealize.ShloMosaic.Adequacy
import Idealize.ShloMosaic.Init

set_option maxRecDepth 16384

noncomputable section

namespace Cert.Proof

open Idealize.ShloMosaic Idealize.SL.Sem Cert.SegStats

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two rewrites of a widening of a narrowing into the identity, at the softmax block and at the column of row sums. -/
theorem preserves : Cert.preserves_Kernel_KernelIdeal :=
  ⟨IdealRules.truncf_extf.statement _ _ _, IdealRules.truncf_extf.statement _ _ _⟩

/-- The shared tail of equal counts and equal variances. -/
theorem results_agree (X : SX.Idx → EReal) (A : SA.Idx → BitVec 32) (M : SA.Idx → BitVec 1)
    (hX : ∀ i, ∃ r : ℝ, X i = (r : EReal)) :
    finish (fun i => rN A M (i 0)) (fun i => rVar X A M (i 0))
      = finish (fun i => kN (regionOut X A M) (i 0)) (fun i => kVar (regionOut X A M) (i 0)) := by
  have hn : (fun i : SC.Idx => rN A M (i 0)) = fun i : SC.Idx => kN (regionOut X A M) (i 0) :=
    funext fun i => (counts_agree X A M hX (i 0)).symm
  have hv : (fun i : SC.Idx => rVar X A M (i 0)) = fun i : SC.Idx => kVar (regionOut X A M) (i 0) :=
    funext fun i => (vars_agree X A M hX (i 0)).symm
  rw [hn, hv]

/-- From memories agreeing on the arguments both programs end at the shared tail of the same counts and the same
    variances. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.SegStats.K.result m c, Cert.SegStats.K.run m ρ, ?_⟩
  refine (θ_run Cert.ReferenceIdeal.defs _ _).mono
    (fun _ h c => ⟨(h c).1.trans ((Cert.SegStats.R.ref_result m' c).trans ?_), (h c).2⟩)
    (Cert.ReferenceIdeal.Value.run (F := Ideal) m' ρ')
  have hfin := finite_of_pre (hP := Cert.Pre_finite_inputs.Gen.facts) _ _ _ (hpre c)
  have e := results_agree (Cert.SegStats.K.argX m c) (Cert.SegStats.K.argA m c) (Cert.SegStats.K.argM m c) hfin
  unfold Cert.SegStats.R.result Cert.SegStats.K.result Cert.SegStats.K.outArr
  rw [show Cert.SegStats.R.argX m' c = Cert.SegStats.K.argX m c from (hagree c).1,
    show Cert.SegStats.R.argA m' c = Cert.SegStats.K.argA m c from (hagree c).2.1,
    show Cert.SegStats.R.argM m' c = Cert.SegStats.K.argM m c from (hagree c).2.2]
  exact e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
